-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v1)) (v2 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v1) = v1 c
          ∧ r.2.mem ((c.tc : Thread Cert.KernelIdeal.nD Cert.KernelIdeal.τ).loc Cert.KernelIdeal.main_v0_1) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_v52) = v1 c
          ∧ r.2.mem ((c.tc : Thread Cert.ReferenceIdeal.nD Cert.ReferenceIdeal.τ).loc Cert.ReferenceIdeal.main_v12) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x1024 : Shape := ⟨2, ![128, 1024]⟩
abbrev S1024x1024 : Shape := ⟨2, ![1024, 1024]⟩
abbrev S_ : Shape := ⟨0, ![]⟩

class Facts : Prop where
  bcast_S_S128x1024 : S_.BroadcastsInDim S128x1024 (![] : Fin 0 → Fin S128x1024.rank)
  reducesTo_S128x1024_S_d0_1 : S128x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_arg4 : FVec F S128x1024 .f32) (main_v13 : IVec S_ 1) (main_v16 : IVec S128x1024 1) : IVec S_ 1 :=
  let main_c_5 : IVec S_ 1 := constantI S_ 1 1#1
  let main_v17 : IVec S_ 1 := (fun x v => Host.reduce IntOp.andi x v reducesTo_S128x1024_S_d0_1 h_S_) main_v16 main_c_5
  let main_v18 : IVec S_ 1 := andi main_v13 main_v17
  let main_v19 : FVec F S128x1024 .f32 := Host.absf main_arg4
  let main_cst_6 : FVec F S_ .f32 := constant S_ .f32 0x7F800000#32
  let main_v20 : FVec F S128x1024 .f32 := broadcastInDim S128x1024 ![] bcast_S_S128x1024 main_cst_6
  let main_v21 : IVec S128x1024 1 := cmpf .olt main_v19 main_v20
  let main_c_7 : IVec S_ 1 := constantI S_ 1 1#1
  let main_v22 : IVec S_ 1 := (fun x v => Host.reduce IntOp.andi x v reducesTo_S128x1024_S_d0_1 h_S_) main_v21 main_c_7
  let main_v23 : IVec S_ 1 := andi main_v18 main_v22
  main_v23

def fn {F : FTy → Type} [FloatOps F] (main_arg0 : FVec F S128x1024 .f32) (main_arg1 : FVec F S1024x1024 .f32) (main_arg2 : FVec F S128x1024 .f32) (main_arg3 : FVec F S128x1024 .f32) (main_arg4 : FVec F S128x1024 .f32) : IVec S_ 1 :=
  let main_v0 : FVec F S128x1024 .f32 := Host.absf main_arg0
  let main_cst : FVec F S_ .f32 := constant S_ .f32 0x7F800000#32
  let main_v1 : FVec F S128x1024 .f32 := broadcastInDim S128x1024 ![] bcast_S_S128x1024 main_cst
  let main_v2 : IVec S128x1024 1 := cmpf .olt main_v0 main_v1
  let main_c : IVec S_ 1 := constantI S_ 1 1#1
  let main_v3 : IVec S_ 1 := (fun x v => Host.reduce IntOp.andi x v reducesTo_S128x1024_S_d0_1 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S128x1024 .f32 := Host.absf main_arg2
  let main_cst_2 : FVec F S_ .f32 := constant S_ .f32 0x7F800000#32
  let main_v10 : FVec F S128x1024 .f32 := broadcastInDim S128x1024 ![] bcast_S_S128x1024 main_cst_2
  let main_v11 : IVec S128x1024 1 := cmpf .olt main_v9 main_v10
  let main_c_3 : IVec S_ 1 := constantI S_ 1 1#1
  let main_v12 : IVec S_ 1 := (fun x v => Host.reduce IntOp.andi x v reducesTo_S128x1024_S_d0_1 h_S_) main_v11 main_c_3
  let main_v13 : IVec S_ 1 := andi main_v8 main_v12
  let main_v14 : FVec F S128x1024 .f32 := Host.absf main_arg3
  let main_cst_4 : FVec F S_ .f32 := constant S_ .f32 0x7F800000#32
  let main_v15 : FVec F S128x1024 .f32 := broadcastInDim S128x1024 ![] bcast_S_S128x1024 main_cst_4
  let main_v16 : IVec S128x1024 1 := cmpf .olt main_v14 main_v15
  fn_part1 (F := F) main_arg4 main_v13 main_v16
-- ==== Kernel.lean ====
abbrev S128x1024 : Shape := ⟨2, ![128, 1024]⟩
abbrev S1024x1024 : Shape := ⟨2, ![1024, 1024]⟩
abbrev S256x256 : Shape := ⟨2, ![256, 256]⟩
abbrev S128x256 : Shape := ⟨2, ![128, 256]⟩
abbrev S16x256 : Shape := ⟨2, ![16, 256]⟩
abbrev S16x256x1 : Shape := ⟨3, ![16, 256, 1]⟩
abbrev S16x256x256 : Shape := ⟨3, ![16, 256, 256]⟩
abbrev S16x1x256 : Shape := ⟨3, ![16, 1, 256]⟩

abbrev nBuf : Space → Nat
  | .hbm => 10
  | .vmem => 17
  | .smem => 0
  | _ => 0

abbrev bufTy : (tb : Table) → Fin (tcTables nBuf tb) → BufTy
  | .hbm, ⟨0, _⟩ => ⟨S128x1024, .f32⟩
  | .hbm, ⟨1, _⟩ => ⟨S1024x1024, .f32⟩
  | .hbm, ⟨2, _⟩ => ⟨S128x1024, .f32⟩
  | .hbm, ⟨3, _⟩ => ⟨S128x1024, .f32⟩
  | .hbm, ⟨4, _⟩ => ⟨S128x1024, .f32⟩
  | .hbm, ⟨5, _⟩ => ⟨S128x1024, .f32⟩
  | .hbm, ⟨6, _⟩ => ⟨S128x1024, .f32⟩
  | .hbm, ⟨7, _⟩ => ⟨S128x1024, .f32⟩
  | .hbm, ⟨8, _⟩ => ⟨S128x1024, .f32⟩
  | .hbm, ⟨9, _⟩ => ⟨S1024x1024, .f32⟩
  | .local _ .vmem, ⟨0, _⟩ => ⟨S128x1024, .f32⟩
  | .local _ .vmem, ⟨1, _⟩ => ⟨S1024x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S256x256, .f32⟩
  | .local _ .vmem, ⟨10, _⟩ => ⟨S256x256, .f32⟩
  | .local _ .vmem, ⟨11, _⟩ => ⟨S128x256, .f32⟩
  | .local _ .vmem, ⟨12, _⟩ => ⟨S128x256, .f32⟩
  | .local _ .vmem, ⟨13, _⟩ => ⟨S128x256, .f32⟩
  | .local _ .vmem, ⟨14, _⟩ => ⟨S128x256, .f32⟩
  | .local _ .vmem, ⟨15, _⟩ => ⟨S256x256, .f32⟩
  | .local _ .vmem, ⟨16, _⟩ => ⟨S256x256, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v1 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem3_1 : DmaSem sig := 16

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev grid1 : Pipeline.Grid := ⟨2, ![4, 4], ![false, false]⟩

@[reducible] def k1_t1_loop : Scf.Loop 32 :=
  let c0_i32 : BitVec 32 := 0#32
  let c8_i32 : BitVec 32 := 8#32
  let v1 : BitVec 32 := Scalar.addi c0_i32 c8_i32
  let c1_i32 : BitVec 32 := 1#32
  ⟨c0_i32, v1, c1_i32⟩
def k1_mult1 (k1_t1 : Fin k1_t1_loop.trips) : BitVec 32 :=
  let c0_i32 : BitVec 32 := 0#32
  let c1_i32 : BitVec 32 := 1#32
  let arg6 : BitVec 32 := Scf.iv c0_i32 c1_i32 k1_t1
  let c16_i32 : BitVec 32 := 16#32
  let v8 : BitVec 32 := Scalar.muli arg6 c16_i32
  v8
def k1_off1 (k1_t1 : Fin k1_t1_loop.trips) : Fin 2 → Nat :=
  let c0_i32 : BitVec 32 := 0#32
  let c1_i32 : BitVec 32 := 1#32
  let arg6 : BitVec 32 := Scf.iv c0_i32 c1_i32 k1_t1
  let c16_i32 : BitVec 32 := 16#32
  let v8 : BitVec 32 := Scalar.muli arg6 c16_i32
  let v9 : BitVec 32 := v8
  let v10 : Index := Scalar.indexCast v9
  let c0_5 : Index := 0#32
  ![v10.toNat, 0]
def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S256x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S128x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S128x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S256x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  inb_S128x1024_S128x1024_0_0 : ∀ a, (![0, 0] : Fin 2 → Nat) a + S128x1024.size a ≤ S128x1024.size a
  h_S128x1024 : 0 < S128x1024.numel
  inb_S1024x1024_S1024x1024_0_0 : ∀ a, (![0, 0] : Fin 2 → Nat) a + S1024x1024.size a ≤ S1024x1024.size a
  h_S1024x1024 : 0 < S1024x1024.numel
  natLt_1_32 : 1 < 32
  h_S16x256 : 0 < S16x256.numel
  shapeCasts_S16x256_S16x256 : S16x256.ShapeCasts S16x256
  shapeCasts_S16x256_S16x256x1 : S16x256.ShapeCasts S16x256x1
  shapeCasts_S16x256x1_S16x256x1 : S16x256x1.ShapeCasts S16x256x1
  broadcasts_S16x256x1_S16x256x256 : S16x256x1.Broadcasts S16x256x256
  shapeCasts_S16x256_S16x1x256 : S16x256.ShapeCasts S16x1x256
  shapeCasts_S16x1x256_S16x1x256 : S16x1x256.ShapeCasts S16x1x256
  broadcasts_S16x1x256_S16x256x256 : S16x1x256.Broadcasts S16x256x256
  reduces_S16x256x256_S256x256 : S16x256x256.Reduces [0] S256x256
  inb_S256x256_S256x256_0_0 : ∀ a, (![0, 0] : Fin 2 → Nat) a + S256x256.size a ≤ S256x256.size a
  h_S256x256 : 0 < S256x256.numel
  dot_S128x1024_S1024x1024_S128x1024_1_1_0_0_n_n_wf : DotDims.WF S128x1024 S1024x1024 S128x1024 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S128x1024.size a ≤ S128x1024.size a
  hwx0_0 : ∀ i : grid0.Coords, EltTy.bits .f32 = 32 ∨ (Rect.block (s := S128x1024) S128x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .f32 = 32 ∨ (Rect.block (s := S1024x1024) S1024x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x1024.size a ≤ S128x1024.size a
  hwx0_2 : ∀ i : grid0.Coords, EltTy.bits .f32 = 32 ∨ (Rect.block (s := S128x1024) S128x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x1024.size a ≤ S128x1024.size a
  hwx0_3 : ∀ i : grid0.Coords, EltTy.bits .f32 = 32 ∨ (Rect.block (s := S128x1024) S128x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x1024.size a ≤ S128x1024.size a
  hwx0_4 : ∀ i : grid0.Coords, EltTy.bits .f32 = 32 ∨ (Rect.block (s := S128x1024) S128x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x1024.size a ≤ S128x1024.size a
  hwx0_5 : ∀ i : grid0.Coords, EltTy.bits .f32 = 32 ∨ (Rect.block (s := S128x1024) S128x1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x1024.size a ≤ S128x1024.size a
  hwx0_6 : ∀ i : grid0.Coords, EltTy.bits .f32 = 32 ∨ (Rect.block (s := S128x1024) S128x1024.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x1024.size a ≤ S128x1024.size a
  hwx0_7 : ∀ i : grid0.Coords, EltTy.bits .f32 = 32 ∨ (Rect.block (s := S128x1024) S128x1024.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128x1024.size a ≤ S128x1024.size a
  hwx0_8 : ∀ i : grid0.Coords, EltTy.bits .f32 = 32 ∨ (Rect.block (s := S128x1024) S128x1024.size (cc0_transform_8 i) (hinb0_8 i)).WholeWords (EltTy.packing .f32)
  hrank1 : 0 < grid1.rank
  k1_t1_ok : k1_t1_loop.OK
  k1_mult1_dvd : ∀ k1_t1 : Fin k1_t1_loop.trips, 16 ∣ (k1_mult1 k1_t1).toNat
  k1_off1_inb : ∀ k1_t1 : Fin k1_t1_loop.trips, ∀ a, (k1_off1 k1_t1) a + S16x256.size a ≤ S128x256.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x256.size a ≤ S1024x1024.size a
  hwx1_0 : ∀ i : grid1.Coords, EltTy.bits .f32 = 32 ∨ (Rect.block (s := S1024x1024) S256x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S128x256.size a ≤ S128x1024.size a
  hwx1_1 : ∀ i : grid1.Coords, EltTy.bits .f32 = 32 ∨ (Rect.block (s := S128x1024) S128x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S128x256.size a ≤ S128x1024.size a
  hwx1_2 : ∀ i : grid1.Coords, EltTy.bits .f32 = 32 ∨ (Rect.block (s := S128x1024) S128x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S256x256.size a ≤ S1024x1024.size a
  hwx1_3 : ∀ i : grid1.Coords, EltTy.bits .f32 = 32 ∨ (Rect.block (s := S1024x1024) S256x256.size (cc1_transform_3 i) (hinb1_3 i)).WholeWords (EltTy.packing .f32)

variable [Facts₀]

def dot_S128x1024_S1024x1024_S128x1024_1_1_0_0_n_n : DotDims S128x1024 S1024x1024 S128x1024 where
  lhsContracting := [1]
  rhsContracting := [1]
  lhsNonContracting := [0]
  rhsNonContracting := [0]
  lhsBatch := []
  rhsBatch := []
  wf := dot_S128x1024_S1024x1024_S128x1024_1_1_0_0_n_n_wf

abbrev win0_0 : Pipeline.Window sig grid0 :=
  Pipeline.Window.ofSpec (Memref.whole main_arg0) S128x1024.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0_0) S128x1024.size cc0_transform_5 reads0_5 true true 1 stage0_5 sem0_5
    hrank0 hreads0_5 hinb0_5 nbuf0_5 (Memref.isWhole_whole _) hwx0_5 hstage0_5

abbrev win0_6 : Pipeline.Window sig grid0 :=
  Pipeline.Window.ofSpec (Memref.whole main_v0_1) S128x1024.size cc0_transform_6 reads0_6 true true 1 stage0_6 sem0_6
    hrank0 hreads0_6 hinb0_6 nbuf0_6 (Memref.isWhole_whole _) hwx0_6 hstage0_6

abbrev win0_7 : Pipeline.Window sig grid0 :=
  Pipeline.Window.ofSpec (Memref.whole main_v0_2) S128x1024.size cc0_transform_7 reads0_7 true true 1 stage0_7 sem0_7
    hrank0 hreads0_7 hinb0_7 nbuf0_7 (Memref.isWhole_whole _) hwx0_7 hstage0_7

abbrev win0_8 : Pipeline.Window sig grid0 :=
  Pipeline.Window.ofSpec (Memref.whole main_v0_3) S128x1024.size cc0_transform_8 reads0_8 true true 1 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_arg1) S256x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0_2) S128x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v0_3) S128x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v1) S256x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S128x1024 : Shape := ⟨2, ![128, 1024]⟩
abbrev S1024x1024 : Shape := ⟨2, ![1024, 1024]⟩
abbrev S_ : Shape := ⟨0, ![]⟩
abbrev S128x1x1024 : Shape := ⟨3, ![128, 1, 1024]⟩
abbrev S128x1024x1 : Shape := ⟨3, ![128, 1024, 1]⟩
abbrev S128x1024x1024 : Shape := ⟨3, ![128, 1024, 1024]⟩

abbrev nBuf : Space → Nat
  | .hbm => 80
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S1024x1024, .f32⟩
  | .hbm, ⟨2, _⟩ => ⟨S128x1024, .f32⟩
  | .hbm, ⟨3, _⟩ => ⟨S128x1024, .f32⟩
  | .hbm, ⟨4, _⟩ => ⟨S128x1024, .f32⟩
  | .hbm, ⟨5, _⟩ => ⟨S1024x1024, .f32⟩
  | .hbm, ⟨6, _⟩ => ⟨S128x1024, .f32⟩
  | .hbm, ⟨7, _⟩ => ⟨S_, .f32⟩
  | .hbm, ⟨8, _⟩ => ⟨S128x1024, .f32⟩
  | .hbm, ⟨9, _⟩ => ⟨S128x1024, .f32⟩
  | .hbm, ⟨10, _⟩ => ⟨S128x1024, .f32⟩
  | .hbm, ⟨11, _⟩ => ⟨S_, .f32⟩
  | .hbm, ⟨12, _⟩ => ⟨S128x1024, .f32⟩
  | .hbm, ⟨13, _⟩ => ⟨S128x1024, .i1⟩
  | .hbm, ⟨14, _⟩ => ⟨S128x1024, .f32⟩
  | .hbm, ⟨15, _⟩ => ⟨S_, .f32⟩
  | .hbm, ⟨16, _⟩ => ⟨S128x1024, .f32⟩
  | .hbm, ⟨17, _⟩ => ⟨S128x1024, .i1⟩
  | .hbm, ⟨18, _⟩ => ⟨S_, .f32⟩
  | .hbm, ⟨19, _⟩ => ⟨S128x1024, .f32⟩
  | .hbm, ⟨20, _⟩ => ⟨S128x1024, .f32⟩
  | .hbm, ⟨21, _⟩ => ⟨S128x1024, .f32⟩
  | .hbm, ⟨22, _⟩ => ⟨S_, .f32⟩
  | .hbm, ⟨23, _⟩ => ⟨S128x1024, .f32⟩
  | .hbm, ⟨24, _⟩ => ⟨S128x1024, .i1⟩
  | .hbm, ⟨25, _⟩ => ⟨S_, .f32⟩
  | .hbm, ⟨26, _⟩ => ⟨S128x1024, .f32⟩
  | .hbm, ⟨27, _⟩ => ⟨S128x1024, .f32⟩
  | .hbm, ⟨28, _⟩ => ⟨S_, .f32⟩
  | .hbm, ⟨29, _⟩ => ⟨S_, .f32⟩
  | .hbm, ⟨30, _⟩ => ⟨S128x1024, .f32⟩
  | .hbm, ⟨31, _⟩ => ⟨S128x1024, .f32⟩
  | .hbm, ⟨32, _⟩ => ⟨S_, .f32⟩
  | .hbm, ⟨33, _⟩ => ⟨S128x1024, .f32⟩
  | .hbm, ⟨34, _⟩ => ⟨S128x1024, .i1⟩
  | .hbm, ⟨35, _⟩ => ⟨S_, .f32⟩
  | .hbm, ⟨36, _⟩ => ⟨S128x1024, .f32⟩
  | .hbm, ⟨37, _⟩ => ⟨S128x1024, .f32⟩
  | .hbm, ⟨38, _⟩ => ⟨S_, .f32⟩
  | .hbm, ⟨39, _⟩ => ⟨S_, .f32⟩
  | .hbm, ⟨40, _⟩ => ⟨S128x1024, .f32⟩
  | .hbm, ⟨41, _⟩ => ⟨S128x1024, .f32⟩
  | .hbm, ⟨42, _⟩ => ⟨S128x1x1024, .f32⟩
  | .hbm, ⟨43, _⟩ => ⟨S128x1024x1, .f32⟩
  | .hbm, ⟨44, _⟩ => ⟨S128x1024x1024, .f32⟩
  | .hbm, ⟨45, _⟩ => ⟨S128x1024x1024, .f32⟩
  | .hbm, ⟨46, _⟩ => ⟨S128x1024x1024, .f32⟩
  | .hbm, ⟨47, _⟩ => ⟨S_, .f32⟩
  | .hbm, ⟨48, _⟩ => ⟨S128x1024x1024, .f32⟩
  | .hbm, ⟨49, _⟩ => ⟨S128x1024x1024, .i1⟩
  | .hbm, ⟨50, _⟩ => ⟨S128x1024x1024, .f32⟩
  | .hbm, ⟨51, _⟩ => ⟨S_, .f32⟩
  | .hbm, ⟨52, _⟩ => ⟨S128x1024x1024, .f32⟩
  | .hbm, ⟨53, _⟩ => ⟨S128x1024x1024, .f32⟩
  | .hbm, ⟨54, _⟩ => ⟨S128x1024x1024, .f32⟩
  | .hbm, ⟨55, _⟩ => ⟨S_, .f32⟩
  | .hbm, ⟨56, _⟩ => ⟨S128x1024x1024, .f32⟩
  | .hbm, ⟨57, _⟩ => ⟨S128x1024x1024, .f32⟩
  | .hbm, ⟨58, _⟩ => ⟨S128x1024x1024, .f32⟩
  | .hbm, ⟨59, _⟩ => ⟨S128x1024x1024, .f32⟩
  | .hbm, ⟨60, _⟩ => ⟨S_, .f32⟩
  | .hbm, ⟨61, _⟩ => ⟨S128x1024x1024, .f32⟩
  | .hbm, ⟨62, _⟩ => ⟨S128x1024x1024, .i1⟩
  | .hbm, ⟨63, _⟩ => ⟨S_, .f32⟩
  | .hbm, ⟨64, _⟩ => ⟨S128x1024x1024, .f32⟩
  | .hbm, ⟨65, _⟩ => ⟨S128x1024x1024, .f32⟩
  | .hbm, ⟨66, _⟩ => ⟨S128x1024x1024, .f32⟩
  | .hbm, ⟨67, _⟩ => ⟨S_, .f32⟩
  | .hbm, ⟨68, _⟩ => ⟨S128x1024x1024, .f32⟩
  | .hbm, ⟨69, _⟩ => ⟨S128x1024x1024, .f32⟩
  | .hbm, ⟨70, _⟩ => ⟨S128x1024x1024, .f32⟩
  | .hbm, ⟨71, _⟩ => ⟨S128x1024x1024, .f32⟩
  | .hbm, ⟨72, _⟩ => ⟨S128x1024x1024, .f32⟩
  | .hbm, ⟨73, _⟩ => ⟨S_, .f32⟩
  | .hbm, ⟨74, _⟩ => ⟨S1024x1024, .f32⟩
  | .hbm, ⟨75, _⟩ => ⟨S_, .f32⟩
  | .hbm, ⟨76, _⟩ => ⟨S1024x1024, .f32⟩
  | .hbm, ⟨77, _⟩ => ⟨S1024x1024, .f32⟩
  | .hbm, ⟨78, _⟩ => ⟨S1024x1024, .f32⟩
  | .hbm, ⟨79, _⟩ => ⟨S1024x1024, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_call1_v0 : Ref sig .tc := ⟨.hbm, 29, rfl⟩
abbrev main_call1_v1 : Ref sig .tc := ⟨.hbm, 30, rfl⟩
abbrev main_v17 : Ref sig .tc := ⟨.hbm, 31, rfl⟩
abbrev main_cst_6 : Ref sig .tc := ⟨.hbm, 32, rfl⟩
abbrev main_v18 : Ref sig .tc := ⟨.hbm, 33, rfl⟩
abbrev main_v19 : Ref sig .tc := ⟨.hbm, 34, rfl⟩
abbrev main_cst_7 : Ref sig .tc := ⟨.hbm, 35, rfl⟩
abbrev main_v20 : Ref sig .tc := ⟨.hbm, 36, rfl⟩
abbrev main_v21 : Ref sig .tc := ⟨.hbm, 37, rfl⟩
abbrev main_cst_8 : Ref sig .tc := ⟨.hbm, 38, rfl⟩
abbrev main_call2_v0 : Ref sig .tc := ⟨.hbm, 39, rfl⟩
abbrev main_call2_v1 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_cst_9 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_cst_10 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_cst_11 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_cst_12 : Ref sig .tc := ⟨.hbm, 60, rfl⟩
abbrev main_v38 : Ref sig .tc := ⟨.hbm, 61, rfl⟩
abbrev main_v39 : Ref sig .tc := ⟨.hbm, 62, rfl⟩
abbrev main_cst_13 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_14 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_cst_15 : Ref sig .tc := ⟨.hbm, 73, rfl⟩
abbrev main_v48 : Ref sig .tc := ⟨.hbm, 74, rfl⟩
abbrev main_cst_16 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩

abbrev nD : Nat := 1
abbrev τ : Topo := Topo.v7x

variable {F : FTy → Type} [FloatOps F]

class Facts₀ : Prop where
  transposes_S1024x1024_S1024x1024_1_0 : S1024x1024.Transposes [1, 0] S1024x1024
  bcast_S_S128x1024 : S_.BroadcastsInDim S128x1024 (![] : Fin 0 → Fin S128x1024.rank)
  bcast_S128x1024_S128x1x1024_0_2 : S128x1024.BroadcastsInDim S128x1x1024 (![0, 2] : Fin 2 → Fin S128x1x1024.rank)
  bcast_S128x1024_S128x1024x1_0_1 : S128x1024.BroadcastsInDim S128x1024x1 (![0, 1] : Fin 2 → Fin S128x1024x1.rank)
  bcast_S128x1x1024_S128x1024x1024_0_1_2 : S128x1x1024.BroadcastsInDim S128x1024x1024 (![0, 1, 2] : Fin 3 → Fin S128x1024x1024.rank)
  bcast_S128x1024x1_S128x1024x1024_0_1_2 : S128x1024x1.BroadcastsInDim S128x1024x1024 (![0, 1, 2] : Fin 3 → Fin S128x1024x1024.rank)
  bcast_S_S128x1024x1024 : S_.BroadcastsInDim S128x1024x1024 (![] : Fin 0 → Fin S128x1024x1024.rank)
  reducesTo_S128x1024x1024_S1024x1024_d0 : S128x1024x1024.ReducesTo [0] S1024x1024
  h_S_ : 0 < S_.numel
  bcast_S_S1024x1024 : S_.BroadcastsInDim S1024x1024 (![] : Fin 0 → Fin S1024x1024.rank)
  dot_S128x1024_S1024x1024_S128x1024_1_0_0_1_n_n_wf : DotDims.WF S128x1024 S1024x1024 S128x1024 [1] [0] [0] [1] [] []

variable [Facts₀]

def dot_S128x1024_S1024x1024_S128x1024_1_0_0_1_n_n : DotDims S128x1024 S1024x1024 S128x1024 where
  lhsContracting := [1]
  rhsContracting := [0]
  lhsNonContracting := [0]
  rhsNonContracting := [1]
  lhsBatch := []
  rhsBatch := []
  wf := dot_S128x1024_S1024x1024_S128x1024_1_0_0_1_n_n_wf

class Facts : Prop extends Facts₀ where

variable [Facts]
-- ==== Proof.Spec.lean ====
/-
  The layer's one step, stated entry by entry over the extended reals, and the small laws that join the two programs.

  A batch of 128 rows of 1024 input spikes x meets a 1024 x 1024 weight matrix w (row o holds the weights of output o).
  The membrane potential of output o in row b is the old potential scaled by a leak constant plus the input current
  sum_k x[b,k] w[o,k]. An output fires when that potential exceeds 1; a firing output's potential is lowered by a reset
  constant. Two timers count steps since the last spike: an input's timer goes to 0 where the input spiked and
  otherwise grows by 1, and likewise an output's timer where the output fired. The weight w[o,i] then moves by the mean
  over the 128 rows of a timing rule of the difference dt = (output timer) - (input timer): a positive difference
  contributes a * exp(-dt / 20), a negative one takes away a * exp(dt / 20), a zero difference nothing.

  Everything is a function of five arrays. Finiteness of the entries is never used: the laws below hold on all of the
  extended reals (a bit times a value, a difference from zero, a quotient by 128, a sum taken in chunks).
-/
import Idealize.ShloMosaic.PureOps.Ideal
import Idealize.ShloMosaic.PureOps.Ideal.Laws
import Idealize.ShloMosaic.Lib.ValueIdx
import Mathlib.Algebra.BigOperators.Fin
import Mathlib.Logic.Equiv.Fin.Basic

noncomputable section

open scoped BigOperators

namespace Cert.Stdp

open Idealize.ShloMosaic Idealize.ShloMosaic.ValueIdx

/-! ## The constants, as the words both programs spell -/

/-- The leak factor (the word both programs print for 0.99). -/
abbrev leak : EReal := Ideal.ofBits .f32 0x3F7D70A4#32
/-- The firing threshold, and the timers' increment: 1. -/
abbrev one : EReal := Ideal.ofBits .f32 0x3F800000#32
/-- Zero. -/
abbrev zero : EReal := Ideal.ofBits .f32 0x00000000#32
/-- What a firing output's potential is lowered by (the word for 0.8). -/
abbrev resetBy : EReal := Ideal.ofBits .f32 0x3F4CCCCD#32
/-- The time constant of both exponentials: 20. -/
abbrev tau : EReal := Ideal.ofBits .f32 0x41A00000#32
/-- The amplitude of both exponentials (the word for 0.005). -/
abbrev amp : EReal := Ideal.ofBits .f32 0x3BA3D70A#32
/-- The reciprocal of the batch size, 1/128, an exact binary fraction. -/
abbrev invBatch : EReal := Ideal.ofBits .f32 0x3C000000#32
/-- The batch size, 128. -/
abbrev batch : EReal := Ideal.ofBits .f32 0x43000000#32

/-- A batch of rows: 128 x 1024. -/
abbrev Rows := (⟨2, ![128, 1024]⟩ : Shape).Idx → EReal
/-- The weights: 1024 x 1024, output by input. -/
abbrev Weights := (⟨2, ![1024, 1024]⟩ : Shape).Idx → EReal

/-! ## The step, entry by entry -/

/-- The potential of output o in row b after the leak and the input current. -/
def potential (x : Rows) (w : Weights) (mb : Rows) (b : Fin 128) (o : Fin 1024) : EReal :=
  mb (ix2 b o) * leak + ∑ k : Fin 1024, x (ix2 b k) * w (ix2 o k)

/-- Whether output o fires in row b: its potential exceeds 1. -/
def fires (x : Rows) (w : Weights) (mb : Rows) (b : Fin 128) (o : Fin 1024) : BitVec 1 :=
  Ideal.cmp .ogt (potential x w mb b o) one

/-- The spike as a number, 1 or 0. -/
def spike (x : Rows) (w : Weights) (mb : Rows) (b : Fin 128) (o : Fin 1024) : EReal :=
  (((fires x w mb b o).toNat : ℝ) : EReal)

/-- The potential after the reset: lowered where the output fired. -/
def potentialAfter (x : Rows) (w : Weights) (mb : Rows) (b : Fin 128) (o : Fin 1024) : EReal :=
  Scalar.select (Ideal.cmp .ogt (spike x w mb b o) zero) (potential x w mb b o - resetBy) (potential x w mb b o)

/-- The input timer: 0 where the input spiked, else one more. -/
def timerIn (x : Rows) (dpre : Rows) (b : Fin 128) (i : Fin 1024) : EReal :=
  Scalar.select (Ideal.cmp .ogt (x (ix2 b i)) zero) zero (dpre (ix2 b i) + one)

/-- The output timer: 0 where the output fired, else one more. -/
def timerOut (x : Rows) (w : Weights) (mb : Rows) (dfire : Rows) (b : Fin 128) (o : Fin 1024) : EReal :=
  Scalar.select (Ideal.cmp .ogt (spike x w mb b o) zero) zero (dfire (ix2 b o) + one)

/-- The strengthening term of the timing rule at a difference dt. -/
def strengthen (dt : EReal) : EReal :=
  Scalar.select (Ideal.cmp .ogt dt zero) (amp * Ideal.exp (Ideal.div (zero - dt) tau)) zero

/-- The weakening term of the timing rule at a difference dt. -/
def weaken (dt : EReal) : EReal :=
  Scalar.select (Ideal.cmp .olt dt zero) (amp * Ideal.exp (Ideal.div dt tau)) zero

/-- The timing rule at a difference dt. -/
def rule (dt : EReal) : EReal := strengthen dt - weaken dt

/-- The new weight from input i to output o: the old one plus the batch mean of the rule. -/
def newWeight (x : Rows) (w : Weights) (mb dpre dfire : Rows) (o i : Fin 1024) : EReal :=
  w (ix2 o i) + (∑ b : Fin 128, rule (timerOut x w mb dfire b o - timerIn x dpre b i)) * invBatch

/-! ## The three arrays the step returns -/

def spikes (x : Rows) (w : Weights) (mb : Rows) : Rows := fun j => spike x w mb (j 0) (j 1)
def potentials (x : Rows) (w : Weights) (mb : Rows) : Rows := fun j => potentialAfter x w mb (j 0) (j 1)
def weights (x : Rows) (w : Weights) (mb dpre dfire : Rows) : Weights := fun j => newWeight x w mb dpre dfire (j 0) (j 1)

/-! ## A one-bit word -/

theorem bit_cases (b : BitVec 1) : b = 0#1 ∨ b = 1#1 := by
  by_cases h : b = 1#1
  · exact Or.inr h
  · exact Or.inl (eq_zero_of_ne_one h)

/-- A one-bit word widened to 32 bits and read as a signed integer is the bit itself. -/
theorem signed_widened_bit (b : BitVec 1) : ((((b.setWidth 32).toInt : ℤ) : ℝ) : EReal) = (((b.toNat : ℕ) : ℝ) : EReal) := by
  rcases bit_cases b with rfl | rfl
  · simp
  · simp

/-- A bit times a value is a choice between the value and zero. -/
theorem bit_mul (b : BitVec 1) (v : EReal) : (((b.toNat : ℕ) : ℝ) : EReal) * v = Scalar.select b v zero := by
  rcases bit_cases b with rfl | rfl
  · rw [select_zero]
    show (((0 : ℕ) : ℝ) : EReal) * v = Ideal.ofBits .f32 0x00000000#32
    rw [Ideal.ofBits_zero_f32]; simp
  · rw [select_one]
    show (((1 : ℕ) : ℝ) : EReal) * v = v
    simp

/-- A difference from zero is the negation. -/
theorem zero_sub_eq_neg (x : EReal) : zero - x = -x := by
  show Ideal.ofBits .f32 0x00000000#32 - x = -x
  rw [Ideal.ofBits_zero_f32, zero_sub]

/-! ## The mean: a quotient by 128 is a product with 1/128 -/

theorem batch_eq : batch = ((128 : ℝ) : EReal) := by
  show Ideal.ofBits .f32 0x43000000#32 = _
  simp [Ideal.ofBits, Ideal.ieee, -EReal.coe_mul]; norm_num

theorem invBatch_eq : invBatch = ((1 / 128 : ℝ) : EReal) := by
  show Ideal.ofBits .f32 0x3C000000#32 = _
  simp [Ideal.ofBits, Ideal.ieee, -EReal.coe_mul]; norm_num

/-- On every extended real, infinite ones included. -/
theorem div_batch (s : EReal) : Ideal.div s batch = s * invBatch := by
  rw [batch_eq, invBatch_eq]
  exact Ideal.div_coe (by norm_num) s

/-! ## A sum over the 128 rows taken as 8 chunks of 16 -/

/-- Row r of chunk k. -/
abbrev rowOf (k : Fin 8) (r : Fin 16) : Fin 128 := ⟨16 * k.val + r.val, by have := k.isLt; have := r.isLt; omega⟩

theorem sum_rows_by_chunks {M : Type*} [AddCommMonoid M] (f : Fin 128 → M) :
    ∑ b : Fin 128, f b = ∑ k : Fin 8, ∑ r : Fin 16, f (rowOf k r) := by
  rw [← Equiv.sum_comp (finProdFinEquiv.trans (finCongr (by norm_num : 8 * 16 = 128))) f, Fintype.sum_prod_type]
  refine Finset.sum_congr rfl fun k _ => Finset.sum_congr rfl fun r _ => congrArg f (Fin.ext ?_)
  show r.val + 16 * k.val = 16 * k.val + r.val
  omega

/-- A total that starts at zero and takes one chunk's sum per step is, after n steps, the sum of the first n chunks. -/
theorem chunk_total {M : Type*} [AddCommMonoid M] (g : ℕ → M) (acc : ℕ → M) (h0 : acc 0 = 0)
    (hs : ∀ n, n < 8 → acc (n + 1) = acc n + g n) (n : ℕ) (hn : n ≤ 8) : acc n = ∑ k ∈ Finset.range n, g k := by
  induction n with
  | zero => rw [h0, Finset.range_zero, Finset.sum_empty]
  | succ n ih => rw [hs n (by omega), ih (by omega), Finset.sum_range_succ]

end Cert.Stdp

end
-- ==== Proof.RefValue.lean ====
/-
  The reference, read against the step's entries.

  The reference computes the same step with whole-array operations: the input current as a product with the transposed
  weights, the spike as the compare converted to a number, the timers by selects, and the weight change from two
  128 x 1024 x 1024 arrays of timer differences, where a condition multiplies a value (a bit times a value is a choice
  between the value and zero), a difference is negated (the negation is the difference from zero), and the batch mean
  is a sum over the first axis divided by 128 (a quotient by 128 is a product with 1/128), transposed back to outputs by
  inputs. Each stage is read at an index through the generated read-at-an-index lemmas.
-/
import proofs.«149763_j21311627722942_1_alg».proof.Proof.RefRead
import proofs.«149763_j21311627722942_1_alg».proof.Proof.Spec

set_option maxRecDepth 16384

noncomputable section

open scoped BigOperators

namespace Cert.ReferenceIdeal.Against

open Cert.ReferenceIdeal Cert.ReferenceIdeal.ReadP Idealize.ShloMosaic Idealize.ShloMosaic.ValueIdx Cert.Stdp

variable (x0 : (⟨S128x1024, .f32⟩ : BufTy).Contents (Elt Ideal)) (x1 : (⟨S1024x1024, .f32⟩ : BufTy).Contents (Elt Ideal))
  (x2 x3 x4 : (⟨S128x1024, .f32⟩ : BufTy).Contents (Elt Ideal))

/-! ## The index maps of the layout stages, at coordinates -/

theorem current_left (b : Fin 128) (o k : Fin 1024) : lidx_main_v1 (ix2 b o) k = ix2 b k :=
  funext fun a => Fin.ext (by match a with | ⟨0, _⟩ => rfl | ⟨1, _⟩ => rfl)
theorem current_right (b : Fin 128) (o k : Fin 1024) : idx_main_v0 (ridx_main_v1 (ix2 b o) k) = ix2 o k :=
  funext fun a => Fin.ext (by match a with | ⟨0, _⟩ => rfl | ⟨1, _⟩ => rfl)
theorem out_timer_at (b : Fin 128) (i o : Fin 1024) : idx_main_v23 (idx_main_v25 (ix3 b i o)) = ix2 b o :=
  funext fun a => Fin.ext (by match a with | ⟨0, _⟩ => rfl | ⟨1, _⟩ => rfl)
theorem in_timer_at (b : Fin 128) (i o : Fin 1024) : idx_main_v24 (idx_main_v26 (ix3 b i o)) = ix2 b i :=
  funext fun a => Fin.ext (by match a with | ⟨0, _⟩ => rfl | ⟨1, _⟩ => rfl)
theorem row_at (i o : Fin 1024) (b : Fin 128) : idx_main_v48 (ix2 i o) b = ix3 b i o :=
  funext fun a => Fin.ext (by match a with | ⟨0, _⟩ => rfl | ⟨1, _⟩ => rfl | ⟨2, _⟩ => rfl)
theorem transposed_at (o i : Fin 1024) : idx_main_v51 (ix2 o i) = ix2 i o :=
  funext fun a => Fin.ext (by match a with | ⟨0, _⟩ => rfl | ⟨1, _⟩ => rfl)

/-! ## The neuron's stages -/

theorem potential_at (b : Fin 128) (o : Fin 1024) : val_main_v4 (F := Ideal) x0 x1 x2 (ix2 b o) = potential x0 x1 x2 b o := by
  rw [val_main_v4_apply, val_main_v3_apply, val_main_v2_apply, val_main_cst_apply, val_main_v1_apply]
  unfold potential
  refine congrArg (x2 (ix2 b o) * leak + ·) (Finset.sum_congr rfl fun k _ => ?_)
  rw [val_main_v0_apply, current_left, current_right]

theorem spike_at (b : Fin 128) (o : Fin 1024) : val_main_v7 (F := Ideal) x0 x1 x2 (ix2 b o) = spike x0 x1 x2 b o := by
  rw [val_main_v7_apply, val_main_v6_apply, potential_at, val_main_v5_apply, val_main_cst_0_apply]
  rfl

theorem potentialAfter_at (b : Fin 128) (o : Fin 1024) : val_main_v12 (F := Ideal) x0 x1 x2 (ix2 b o) = potentialAfter x0 x1 x2 b o := by
  rw [val_main_v12_apply, val_main_v9_apply, spike_at, val_main_v8_apply, val_main_cst_1_apply, val_main_v11_apply, potential_at,
    val_main_v10_apply, val_main_cst_2_apply]
  rfl

theorem timerIn_at (b : Fin 128) (i : Fin 1024) : val_main_v17 (F := Ideal) x0 x3 (ix2 b i) = timerIn x0 x3 b i := by
  rw [val_main_v17_apply, val_main_v14_apply, val_main_v13_apply, val_main_cst_3_apply, val_main_call1_v1_apply, val_main_call1_v0_apply,
    val_main_cst_5_apply, val_main_v16_apply, val_main_v15_apply, val_main_cst_4_apply]
  rfl

theorem timerOut_at (b : Fin 128) (o : Fin 1024) : val_main_v22 (F := Ideal) x0 x1 x2 x4 (ix2 b o) = timerOut x0 x1 x2 x4 b o := by
  rw [val_main_v22_apply, val_main_v19_apply, spike_at, val_main_v18_apply, val_main_cst_6_apply, val_main_call2_v1_apply,
    val_main_call2_v0_apply, val_main_cst_8_apply, val_main_v21_apply, val_main_v20_apply, val_main_cst_7_apply]
  rfl

/-! ## The timing rule, as the reference spells it -/

/-- A condition times a value, twice, with the negation where the kernel takes a difference from zero. -/
theorem rule_as_products (dt : EReal) :
    ((((Ideal.cmp .ogt dt zero).toNat : ℕ) : ℝ) : EReal) * (amp * Ideal.exp (Ideal.div (-dt) tau))
      - ((((Ideal.cmp .olt dt zero).toNat : ℕ) : ℝ) : EReal) * (amp * Ideal.exp (Ideal.div dt tau)) = rule dt := by
  unfold rule strengthen weaken
  rw [bit_mul, bit_mul, zero_sub_eq_neg]

theorem difference_at (b : Fin 128) (i o : Fin 1024) :
    val_main_v27 (F := Ideal) x0 x1 x2 x3 x4 (ix3 b i o) = timerOut x0 x1 x2 x4 b o - timerIn x0 x3 b i := by
  rw [val_main_v27_apply, val_main_v25_apply, val_main_v23_apply, out_timer_at, timerOut_at, val_main_v26_apply, val_main_v24_apply,
    in_timer_at, timerIn_at]
  rfl

theorem rule_at (b : Fin 128) (i o : Fin 1024) :
    val_main_v47 (F := Ideal) x0 x1 x2 x3 x4 (ix3 b i o) = rule (timerOut x0 x1 x2 x4 b o - timerIn x0 x3 b i) := by
  rw [val_main_v47_apply, val_main_v37_apply, val_main_v36_apply, val_main_v29_apply, difference_at, val_main_v28_apply, val_main_cst_9_apply,
    val_main_v35_apply, val_main_v34_apply, val_main_cst_11_apply, val_main_v33_apply, val_main_v32_apply, val_main_v30_apply, difference_at,
    val_main_v31_apply, val_main_cst_10_apply,
    val_main_v46_apply, val_main_v45_apply, val_main_v39_apply, difference_at, val_main_v38_apply, val_main_cst_12_apply,
    val_main_v44_apply, val_main_v43_apply, val_main_cst_14_apply, val_main_v42_apply, val_main_v41_apply, difference_at,
    val_main_v40_apply, val_main_cst_13_apply]
  exact rule_as_products _

/-! ## The new weights -/

theorem newWeight_at (o i : Fin 1024) : val_main_v52 (F := Ideal) x0 x1 x2 x3 x4 (ix2 o i) = newWeight x0 x1 x2 x3 x4 o i := by
  rw [val_main_v52_apply, val_main_v51_apply, transposed_at, val_main_v50_apply, val_main_v48_apply, val_main_cst_15_apply,
    val_main_v49_apply, val_main_cst_16_apply]
  unfold newWeight
  show x1 (ix2 o i) + Ideal.div (Ideal.ofBits .f32 0x00000000#32 + ∑ k : Fin 128, val_main_v47 (F := Ideal) x0 x1 x2 x3 x4 (idx_main_v48 (ix2 i o) k)) batch = _
  rw [Ideal.ofBits_zero_f32, zero_add, div_batch]
  refine congrArg (fun s => x1 (ix2 o i) + s * invBatch) (Finset.sum_congr rfl fun b _ => ?_)
  rw [row_at, rule_at]

/-! ## The three results -/

theorem spikes_eq : val_main_v7 (F := Ideal) x0 x1 x2 = spikes x0 x1 x2 := by
  funext j
  obtain ⟨b, o, rfl⟩ : ∃ (b : Fin 128) (o : Fin 1024), j = ix2 b o := ⟨j 0, j 1, eq_ix2 j⟩
  exact spike_at x0 x1 x2 b o

theorem potentials_eq : val_main_v12 (F := Ideal) x0 x1 x2 = potentials x0 x1 x2 := by
  funext j
  obtain ⟨b, o, rfl⟩ : ∃ (b : Fin 128) (o : Fin 1024), j = ix2 b o := ⟨j 0, j 1, eq_ix2 j⟩
  exact potentialAfter_at x0 x1 x2 b o

theorem weights_eq : val_main_v52 (F := Ideal) x0 x1 x2 x3 x4 = weights x0 x1 x2 x3 x4 := by
  funext j
  obtain ⟨o, i, rfl⟩ : ∃ (o i : Fin 1024), j = ix2 o i := ⟨j 0, j 1, eq_ix2 j⟩
  exact newWeight_at x0 x1 x2 x3 x4 o i

end Cert.ReferenceIdeal.Against

end
-- ==== Proof.K0Value.lean ====
/-
  The neuron kernel's four stored blocks, entry by entry over the extended reals.

  The kernel has one grid point and whole-array blocks. From the input spikes x, the weights w and the old potentials it
  stores the spikes, the potentials after the reset, and the two timers. The input current of output o in row b is the
  matrix unit's product contracting the last axis of both operands, sum over k of x[b,k] w[o,k], into a zero accumulator;
  everything else is entrywise. A spike is a one-bit compare widened to 32 bits and converted as a signed integer, which
  is the bit itself.
-/
import proofs.«149763_j21311627722942_1_alg».proof.Proof.Gen.KernelIdeal.Frame
import proofs.«149763_j21311627722942_1_alg».proof.Proof.Spec
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Region0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Idealize.ShloMosaic.ValueIdx Cert.Stdp

/-! ## The product's operand indices: output (b, o) and contraction index k read x at (b, k) and w at (o, k) -/

theorem lhs_current_0 (i : S128x1024.Idx) (q : dot_S128x1024_S1024x1024_S128x1024_1_1_0_0_n_n.contr.Idx) :
    (dot_S128x1024_S1024x1024_S128x1024_1_1_0_0_n_n.lhsIdx i q 0).val = (i 0).val := by
  unfold DotDims.lhsIdx
  rw [dif_neg (show ¬(0 : Fin S128x1024.rank) ∈ dot_S128x1024_S1024x1024_S128x1024_1_1_0_0_n_n.lhsBatch by decide), dif_pos (show (0 : Fin S128x1024.rank) ∈ dot_S128x1024_S1024x1024_S128x1024_1_1_0_0_n_n.lhsNonContracting by decide)]
  rfl
theorem lhs_current_1 (i : S128x1024.Idx) (q : dot_S128x1024_S1024x1024_S128x1024_1_1_0_0_n_n.contr.Idx) :
    (dot_S128x1024_S1024x1024_S128x1024_1_1_0_0_n_n.lhsIdx i q 1).val = (q ⟨0, by decide⟩).val :=
  dot_S128x1024_S1024x1024_S128x1024_1_1_0_0_n_n.lhsIdx_val_of_single rfl i q
theorem rhs_current_0 (i : S128x1024.Idx) (q : dot_S128x1024_S1024x1024_S128x1024_1_1_0_0_n_n.contr.Idx) :
    (dot_S128x1024_S1024x1024_S128x1024_1_1_0_0_n_n.rhsIdx i q 0).val = (i 1).val := by
  unfold DotDims.rhsIdx
  rw [dif_neg (show ¬(0 : Fin S1024x1024.rank) ∈ dot_S128x1024_S1024x1024_S128x1024_1_1_0_0_n_n.rhsBatch by decide), dif_pos (show (0 : Fin S1024x1024.rank) ∈ dot_S128x1024_S1024x1024_S128x1024_1_1_0_0_n_n.rhsNonContracting by decide)]
  rfl
theorem rhs_current_1 (i : S128x1024.Idx) (q : dot_S128x1024_S1024x1024_S128x1024_1_1_0_0_n_n.contr.Idx) :
    (dot_S128x1024_S1024x1024_S128x1024_1_1_0_0_n_n.rhsIdx i q 1).val = (q ⟨0, by decide⟩).val :=
  dot_S128x1024_S1024x1024_S128x1024_1_1_0_0_n_n.rhsIdx_val_of_single rfl i q

/-- The input current at (b, o): the sum over k of x[b,k] w[o,k]. -/
theorem current_apply (x : FVec Ideal S128x1024 .f32) (w : FVec Ideal S1024x1024 .f32) (b : Fin 128) (o : Fin 1024) :
    matmul dot_S128x1024_S1024x1024_S128x1024_1_1_0_0_n_n (some .fp32) x w (constant (F := Ideal) S128x1024 .f32 0x00000000#32) (ix2 b o)
      = ∑ k : Fin 1024, x (ix2 b k) * w (ix2 o k) := by
  show FloatOps.matmul dot_S128x1024_S1024x1024_S128x1024_1_1_0_0_n_n (some .fp32) x w (constant (F := Ideal) S128x1024 .f32 0x00000000#32) (ix2 b o) = _
  rw [Ideal.matmul_constant_zero_apply, ← Equiv.sum_comp (contrEquiv1 dot_S128x1024_S1024x1024_S128x1024_1_1_0_0_n_n 1024 rfl rfl).symm]
  refine Finset.sum_congr rfl fun k _ => ?_
  have hk := contrEquiv1_symm_val dot_S128x1024_S1024x1024_S128x1024_1_1_0_0_n_n 1024 rfl rfl k
  have el : dot_S128x1024_S1024x1024_S128x1024_1_1_0_0_n_n.lhsIdx (ix2 b o) ((contrEquiv1 dot_S128x1024_S1024x1024_S128x1024_1_1_0_0_n_n 1024 rfl rfl).symm k) = ix2 b k := funext fun a => Fin.ext (by
    match a with
    | ⟨0, _⟩ => exact lhs_current_0 _ _
    | ⟨1, _⟩ => exact (lhs_current_1 _ _).trans hk)
  have er : dot_S128x1024_S1024x1024_S128x1024_1_1_0_0_n_n.rhsIdx (ix2 b o) ((contrEquiv1 dot_S128x1024_S1024x1024_S128x1024_1_1_0_0_n_n 1024 rfl rfl).symm k) = ix2 o k := funext fun a => Fin.ext (by
    match a with
    | ⟨0, _⟩ => exact rhs_current_0 _ _
    | ⟨1, _⟩ => exact (rhs_current_1 _ _).trans hk)
  rw [el, er]

/-! ## The payloads at an entry -/

variable (x : FVec Ideal S128x1024 .f32) (w : FVec Ideal S1024x1024 .f32) (mb dpre dfire : FVec Ideal S128x1024 .f32)

/-- The potential before the reset. -/
theorem pay1_apply (b : Fin 128) (o : Fin 1024) : k0_pay1 (F := Ideal) x w mb (ix2 b o) = potential x w mb b o := by
  show mb (ix2 b o) * Ideal.ofBits .f32 0x3F7D70A4#32
      + matmul dot_S128x1024_S1024x1024_S128x1024_1_1_0_0_n_n (some .fp32) x w (constant (F := Ideal) S128x1024 .f32 0x00000000#32) (ix2 b o) = _
  rw [current_apply]
  rfl

/-- The spike. -/
theorem pay2_apply (b : Fin 128) (o : Fin 1024) : k0_pay2 (F := Ideal) x w mb (ix2 b o) = spike x w mb b o := by
  show ((((Ideal.cmp .ogt (k0_pay1 (F := Ideal) x w mb (ix2 b o)) (Ideal.ofBits .f32 0x3F800000#32)).setWidth 32).toInt : ℝ) : EReal) = _
  rw [pay1_apply, signed_widened_bit]
  rfl

/-- The potential after the reset. -/
theorem pay3_apply (b : Fin 128) (o : Fin 1024) : k0_pay3 (F := Ideal) x w mb (ix2 b o) = potentialAfter x w mb b o := by
  show Scalar.select (Ideal.cmp .ogt (k0_pay2 (F := Ideal) x w mb (ix2 b o)) (Ideal.ofBits .f32 0x00000000#32))
      (k0_pay1 (F := Ideal) x w mb (ix2 b o) - Ideal.ofBits .f32 0x3F4CCCCD#32) (k0_pay1 (F := Ideal) x w mb (ix2 b o)) = _
  rw [pay2_apply, pay1_apply]
  rfl

/-- The input timer. -/
theorem pay4_apply (b : Fin 128) (i : Fin 1024) : k0_pay4 (F := Ideal) x dpre (ix2 b i) = timerIn x dpre b i := rfl

/-- The output timer. -/
theorem pay5_apply (b : Fin 128) (o : Fin 1024) : k0_pay5 (F := Ideal) x w mb dfire (ix2 b o) = timerOut x w mb dfire b o := by
  show Scalar.select (Ideal.cmp .ogt (k0_pay2 (F := Ideal) x w mb (ix2 b o)) (Ideal.ofBits .f32 0x00000000#32))
      (Ideal.ofBits .f32 0x00000000#32) (dfire (ix2 b o) + Ideal.ofBits .f32 0x3F800000#32) = _
  rw [pay2_apply]
  rfl

end Cert.KernelIdeal.Region0

end
-- ==== Proof.K1Body.lean ====
/-
  The weight-update kernel's body at one grid point, as a value.

  A grid point owns a 256 x 256 tile of the weights (outputs p by inputs q), the matching 256 columns of the output
  timers and of the input timers, all 128 rows of each. The body runs 8 trips; trip k takes rows 16k .. 16k+15 of both
  timer blocks, lays the output timers out as a column and the input timers as a row of a 16 x 256 x 256 block, applies
  the timing rule to their differences and adds the sum over the 16 rows to a carried 256 x 256 total that starts at
  zero. After the last trip the tile becomes the old weights plus the total times 1/128.

  Here: what one trip yields from the carried total, the carried total before trip n as a recursion on n, the tile the
  body leaves, and, over the extended reals, one trip's yield read at an entry (p, q) as a sum over its 16 rows.
-/
import proofs.«149763_j21311627722942_1_alg».proof.Proof.Gen.KernelIdeal.Frame
import proofs.«149763_j21311627722942_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Region1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Idealize.ShloMosaic.ValueIdx Cert.Stdp

variable {F : FTy → Type} [FloatOps F]

theorem offsets_zero : (![0, 0] : Fin 2 → Nat) = fun _ => 0 := funext fun a => by fin_cases a <;> rfl

/-! ## One trip, and the carried total -/

/-- Rows 16k .. 16k+15 of a 128-row timer block. -/
def chunk (x : Vec F S128x256 .f32) (k : Fin k1_t1_loop.trips) : Vec F S16x256 .f32 :=
  View.ld x (Rect.unit (s := S128x256) (k1_off1 k) S16x256.size (k1_off1_inb k))

/-- What trip k yields from the carried total: the trip's payload of the total and the two chunks it loads. -/
theorem trip_eq (c : Dev nD) (i : grid1.Coords) (arg2 : Memref sig .tc .vmem S256x256 .f32) (harg2 : arg2.IsWhole) (arg3 : Memref sig .tc .vmem S128x256 .f32) (harg3 : arg3.IsWhole) (arg4 : Memref sig .tc .vmem S128x256 .f32) (harg4 : arg4.IsWhole) (arg5 : Memref sig .tc .vmem S256x256 .f32) (harg5 : arg5.IsWhole)
    (x1 x2 : Vec F S128x256 .f32) (k : Fin k1_t1_loop.trips) (acc : FVec F S256x256 .f32) :
    tripR_k1_t1 (F := F) Variants.none c none i arg2 harg2 arg3 harg3 arg4 harg4 arg5 harg5 (harg3.unread x1) (harg4.unread x2) k acc
      = k1_pay2 acc (chunk x2 k) (chunk x1 k) := by
  unfold tripR_k1_t1 trip_k1_t1
  dsimp only
  sl_unfold_words
  simp only [View.readAt_eq_ld, harg3.read_unread, harg4.read_unread]
  rfl

/-- The carried total before trip n: zero, then one trip's yield after another. -/
def carried (x1 x2 : Vec F S128x256 .f32) : ℕ → FVec F S256x256 .f32
  | 0 => k1_pay1
  | n + 1 => if h : n < k1_t1_loop.trips then k1_pay2 (carried x1 x2 n) (chunk x2 ⟨n, h⟩) (chunk x1 ⟨n, h⟩) else carried x1 x2 n

theorem carried_zero (x1 x2 : Vec F S128x256 .f32) : carried x1 x2 0 = k1_pay1 := rfl

theorem carried_succ (x1 x2 : Vec F S128x256 .f32) (n : ℕ) (h : n < k1_t1_loop.trips) :
    carried x1 x2 (n + 1) = k1_pay2 (carried x1 x2 n) (chunk x2 ⟨n, h⟩) (chunk x1 ⟨n, h⟩) := by
  rw [carried, dif_pos h]

/-- The run's carried value before trip n is that recursion. -/
theorem st_eq (c : Dev nD) (i : grid1.Coords) (arg2 : Memref sig .tc .vmem S256x256 .f32) (harg2 : arg2.IsWhole) (arg3 : Memref sig .tc .vmem S128x256 .f32) (harg3 : arg3.IsWhole) (arg4 : Memref sig .tc .vmem S128x256 .f32) (harg4 : arg4.IsWhole) (arg5 : Memref sig .tc .vmem S256x256 .f32) (harg5 : arg5.IsWhole)
    (x1 x2 : Vec F S128x256 .f32) (n : ℕ) :
    st_k1_t1 (F := F) Variants.none c none i arg2 harg2 arg3 harg3 arg4 harg4 arg5 harg5 (harg3.unread x1) (harg4.unread x2) k1_pay1 n
      = carried x1 x2 n := by
  induction n with
  | zero => rfl
  | succ n ih =>
    rw [st_k1_t1.eq_2, ih]
    unfold st_k1_t1Step
    by_cases h : n < k1_t1_loop.trips
    · rw [dif_pos h, carried_succ x1 x2 n h, trip_eq]
    · rw [dif_neg h, carried, dif_neg h]

theorem trips_eq : Scf.trips (0#32) (Scalar.addi 0#32 8#32) 1#32 = 8 := by decide

/-- THE TILE the body leaves: the old weights plus the total of the 8 trips times 1/128. -/
theorem out_eq (c : Dev nD) (i : grid1.Coords) (arg2 : Memref sig .tc .vmem S256x256 .f32) (harg2 : arg2.IsWhole) (arg3 : Memref sig .tc .vmem S128x256 .f32) (harg3 : arg3.IsWhole) (arg4 : Memref sig .tc .vmem S128x256 .f32) (harg4 : arg4.IsWhole) (arg5 : Memref sig .tc .vmem S256x256 .f32) (harg5 : arg5.IsWhole)
    (x0 : Vec F S256x256 .f32) (x1 x2 : Vec F S128x256 .f32) :
    out1_A_3 (F := F) c i arg2 harg2 arg3 harg3 arg4 harg4 arg5 harg5 x0 x1 x2 = k1_pay3 (carried x1 x2 8) x0 := by
  unfold out1_A_3
  rw [View.read_writes_eq_canon _ _ _ (cover1_A_3 c i arg2 harg2 arg3 harg3 arg4 harg4 arg5 harg5 x0 x1 x2)]
  unfold kernelRun1_A
  dsimp only
  sl_unfold_words
  rw [View.canon_unit_zero offsets_zero]
  simp only [View.readAt_eq_ld, harg2.read_unread, View.ld_unit_zero (S := S256x256) offsets_zero]
  rw [st_eq, trips_eq]

end Cert.KernelIdeal.Region1

end
-- ==== Proof.K1Value.lean ====
/-
  The weight-update kernel's tile, entry by entry over the extended reals.

  Trip k adds, at entry (p, q) of the carried total, the sum over its 16 rows r of the timing rule applied to
  (output timer of row 16k + r, column p) - (input timer of row 16k + r, column q). The total starts at zero, so after
  the 8 trips entry (p, q) holds the sum over all 128 rows, taken chunk by chunk; addition on the extended reals is
  commutative and associative, so this is the plain sum over the rows. The tile's entry is then the old weight plus
  that sum times 1/128.
-/
import proofs.«149763_j21311627722942_1_alg».proof.Proof.K1Body

set_option maxRecDepth 16384

noncomputable section

open scoped BigOperators

namespace Cert.KernelIdeal.Region1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Idealize.ShloMosaic.ValueIdx Cert.Stdp

/-! ## The two layouts of a chunk inside the 16 x 256 x 256 block -/

variable {α : Type}

/-- A chunk's entries laid along the block's middle axis: entry (r, p, q) is the chunk's (r, p). -/
def asColumn (v : S16x256.Idx → α) : S16x256x256.Idx → α :=
  broadcastTo S16x256x256 (shapeCast S16x256x1 (shapeCast S16x256x1 (shapeCast S16x256 v shapeCasts_S16x256_S16x256) shapeCasts_S16x256_S16x256x1) shapeCasts_S16x256x1_S16x256x1) broadcasts_S16x256x1_S16x256x256

/-- A chunk's entries laid along the block's last axis: entry (r, p, q) is the chunk's (r, q). -/
def asRow (v : S16x256.Idx → α) : S16x256x256.Idx → α :=
  broadcastTo S16x256x256 (shapeCast S16x1x256 (shapeCast S16x1x256 (shapeCast S16x256 v shapeCasts_S16x256_S16x256) shapeCasts_S16x256_S16x1x256) shapeCasts_S16x1x256_S16x1x256) broadcasts_S16x1x256_S16x256x256

theorem asColumn_apply (v : S16x256.Idx → α) (r : Fin 16) (p q : Fin 256) : asColumn v (ix3 r p q) = v (ix2 r p) := by
  unfold asColumn
  rw [broadcastTo_apply _ _ (ix3 r p q) (ix3 r p (0 : Fin 1)) (fun a => by
    match a with
    | ⟨0, _⟩ => rfl
    | ⟨1, _⟩ => rfl
    | ⟨2, _⟩ => rfl)]
  rw [shapeCast_self, shapeCast_self]
  refine shapeCast_apply _ _ (ix3 r p (0 : Fin 1)) (ix2 r p) ?_
  rw [Shape.rowMajor_val_two, Shape.rowMajor_val_three]
  show r.val * 256 + p.val = (r.val * 256 + p.val) * 1 + 0
  omega

theorem asRow_apply (v : S16x256.Idx → α) (r : Fin 16) (p q : Fin 256) : asRow v (ix3 r p q) = v (ix2 r q) := by
  unfold asRow
  rw [broadcastTo_apply _ _ (ix3 r p q) (ix3 r (0 : Fin 1) q) (fun a => by
    match a with
    | ⟨0, _⟩ => rfl
    | ⟨1, _⟩ => rfl
    | ⟨2, _⟩ => rfl)]
  rw [shapeCast_self, shapeCast_self]
  refine shapeCast_apply _ _ (ix3 r (0 : Fin 1) q) (ix2 r q) ?_
  rw [Shape.rowMajor_val_two, Shape.rowMajor_val_three]
  show r.val * 256 + q.val = (r.val * 1 + 0) * 256 + q.val
  omega

/-! ## One trip's yield at an entry -/

/-- The trip's payload is the carried total plus the sum along the block's first axis of the rule of the differences. -/
theorem pay2_eq (acc : FVec Ideal S256x256 .f32) (v11 v14 : Vec Ideal S16x256 .f32) :
    k1_pay2 (F := Ideal) acc v11 v14
      = addf acc (multiReduction .add [0] S256x256 (fun j => rule (asColumn v11 j - asRow v14 j)) 0x00000000#32
          reduces_S16x256x256_S256x256 (.inl rfl) rfl) := rfl

/-- The index of the 16 x 256 x 256 block that reduces to (p, q) with row r put back on the summed axis. -/
theorem lift_eq (r : Fin 16) (p q : Fin 256) : reduces_S16x256x256_S256x256.lift (ix2 p q) r = ix3 r p q := by
  funext a
  match a with
  | ⟨0, _⟩ => exact Fin.ext rfl
  | ⟨1, _⟩ => exact Fin.ext rfl
  | ⟨2, _⟩ => exact Fin.ext rfl

/-- The sum along the block's first axis from the zero word, at entry (p, q): the sum over the 16 rows. -/
theorem rowsSum_apply (src : FVec Ideal S16x256x256 .f32) (hφ : FKind.Formats .f32)
    (hacc : (0x00000000#32 : BitVec 32) = 0x00000000#32) (p q : Fin 256) :
    multiReduction .add [0] S256x256 src 0x00000000#32 reduces_S16x256x256_S256x256 hφ hacc (ix2 p q)
      = ∑ r : Fin 16, src (ix3 r p q) := by
  refine (Ideal.multiReduction_add_single src 0x00000000#32 reduces_S16x256x256_S256x256 hφ hacc (ix2 p q)).trans ?_
  exact Finset.sum_congr rfl fun r _ => congrArg src (lift_eq r p q)

theorem pay2_apply (acc : FVec Ideal S256x256 .f32) (v11 v14 : Vec Ideal S16x256 .f32) (p q : Fin 256) :
    k1_pay2 (F := Ideal) acc v11 v14 (ix2 p q) = acc (ix2 p q) + ∑ r : Fin 16, rule (v11 (ix2 r p) - v14 (ix2 r q)) := by
  rw [pay2_eq, addf_apply]
  refine congrArg (acc (ix2 p q) + ·) ((rowsSum_apply _ _ _ p q).trans ?_)
  refine Finset.sum_congr rfl fun r _ => ?_
  show rule (asColumn v11 (ix3 r p q) - asRow v14 (ix3 r p q)) = _
  rw [asColumn_apply, asRow_apply]

/-! ## A chunk's rows -/

theorem loop_trips : k1_t1_loop.trips = 8 := by decide

/-- Row r of chunk k of a timer block is row 16k + r of the block. -/
theorem chunk_apply (x : Vec Ideal S128x256 .f32) (k : Fin k1_t1_loop.trips) (hk : k.val < 8) (r : Fin 16) (p : Fin 256) :
    chunk x k (ix2 r p) = x (ix2 (rowOf ⟨k.val, hk⟩ r) p) := by
  unfold chunk
  show x ((Rect.unit (s := S128x256) (k1_off1 k) S16x256.size (k1_off1_inb k)).emb (ix2 r p)) = _
  refine congrArg x (funext fun a => Fin.ext ?_)
  have e := k1_off1_eq k
  match a with
  | ⟨0, _⟩ =>
    show (k1_off1 k) 0 + 1 * r.val = 16 * k.val + r.val
    rw [e]; show 16 * k.val + 1 * r.val = _; omega
  | ⟨1, _⟩ =>
    show (k1_off1 k) 1 + 1 * p.val = p.val
    rw [e]; show 0 + 1 * p.val = _; omega

/-! ## The carried total after n trips, and after all 8 -/

/-- Chunk k's contribution at entry (p, q) of the timer blocks' tile. -/
def contribution (x1 x2 : Vec Ideal S128x256 .f32) (p q : Fin 256) (k : ℕ) : EReal :=
  if h : k < 8 then ∑ r : Fin 16, rule (x2 (ix2 (rowOf ⟨k, h⟩ r) p) - x1 (ix2 (rowOf ⟨k, h⟩ r) q)) else 0

theorem carried_apply (x1 x2 : Vec Ideal S128x256 .f32) (p q : Fin 256) (n : ℕ) (hn : n ≤ 8) :
    carried x1 x2 n (ix2 p q) = ∑ k ∈ Finset.range n, contribution x1 x2 p q k := by
  refine chunk_total (contribution x1 x2 p q) (fun n => carried x1 x2 n (ix2 p q)) ?_ (fun n hn => ?_) n hn
  · show Ideal.ofBits .f32 0x00000000#32 = 0
    exact Ideal.ofBits_zero_f32
  · have ht : n < k1_t1_loop.trips := by rw [loop_trips]; exact hn
    show carried x1 x2 (n + 1) (ix2 p q) = carried x1 x2 n (ix2 p q) + contribution x1 x2 p q n
    rw [carried_succ x1 x2 n ht, pay2_apply, contribution, dif_pos hn]
    refine congrArg (carried x1 x2 n (ix2 p q) + ·) (Finset.sum_congr rfl fun r _ => ?_)
    rw [chunk_apply x2 ⟨n, ht⟩ hn, chunk_apply x1 ⟨n, ht⟩ hn]

/-- After the 8 trips: the sum over all 128 rows. -/
theorem carried_all (x1 x2 : Vec Ideal S128x256 .f32) (p q : Fin 256) :
    carried x1 x2 8 (ix2 p q) = ∑ b : Fin 128, rule (x2 (ix2 b p) - x1 (ix2 b q)) := by
  rw [carried_apply x1 x2 p q 8 (le_refl 8), Finset.sum_range, sum_rows_by_chunks]
  refine Finset.sum_congr rfl fun k _ => ?_
  rw [contribution, dif_pos k.isLt]

/-! ## The tile at an entry -/

theorem tile_apply (x0 : Vec Ideal S256x256 .f32) (x1 x2 : Vec Ideal S128x256 .f32) (p q : Fin 256) :
    k1_pay3 (F := Ideal) (carried x1 x2 8) x0 (ix2 p q)
      = x0 (ix2 p q) + (∑ b : Fin 128, rule (x2 (ix2 b p) - x1 (ix2 b q))) * invBatch := by
  show x0 (ix2 p q) + carried x1 x2 8 (ix2 p q) * Ideal.ofBits .f32 0x3C000000#32 = _
  rw [carried_all]

end Cert.KernelIdeal.Region1

end
-- ==== Proof.KernelValue.lean ====
/-
  From blocks to whole arrays, for both kernels, over the extended reals.

  The neuron kernel has one grid point whose blocks are the whole arrays: each of its four result arrays ends holding
  the body's payload of the argument arrays. The weight-update kernel tiles the 1024 x 1024 weights into 4 x 4 tiles of
  256 x 256; the point for tile (s, u) reads that tile of the old weights, columns 256u .. 256u+255 of the input timers
  and columns 256s .. 256s+255 of the output timers, all 128 rows, and writes its tile back. Entry (o, i) of the new
  weights lies in exactly the tile (o / 256, i / 256), whose point wrote there the old weight plus 1/128 of the sum over
  the 128 rows of the timing rule of (output timer (b, o)) - (input timer (b, i)): one function of the three arrays the
  region finds, whatever the tile.
-/
import proofs.«149763_j21311627722942_1_alg».proof.Proof.K0Value
import proofs.«149763_j21311627722942_1_alg».proof.Proof.K1Value

set_option maxRecDepth 16384

noncomputable section

open scoped BigOperators

namespace Cert.KernelIdeal.Arrays

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Idealize.ShloMosaic.ValueIdx Cert.Stdp Cert.KernelIdeal.Region1

theorem offsets_zero : (![0, 0] : Fin 2 → Nat) = fun _ => 0 := funext fun a => by fin_cases a <;> rfl

variable (V : (c : Dev nD) → (b : Ref sig .tc) → Buf (Elt Ideal) ((c : Thread nD τ).loc b))

/-! # The neuron kernel -/

/-- The arrays the neuron kernel finds, at their literal shapes. -/
abbrev foundSpikesIn (c : Dev nD) : FVec Ideal S128x1024 .f32 := V c main_arg0
abbrev foundWeights (c : Dev nD) : FVec Ideal S1024x1024 .f32 := V c main_arg1
abbrev foundPotentials (c : Dev nD) : FVec Ideal S128x1024 .f32 := V c main_arg2
abbrev foundInTimers (c : Dev nD) : FVec Ideal S128x1024 .f32 := V c main_arg3
abbrev foundOutTimers (c : Dev nD) : FVec Ideal S128x1024 .f32 := V c main_arg4

/-- At the one point every window's block index is 0 on both axes: the operands' five windows, -/
theorem index_in0 : ∀ t : Fin cfg0.N, win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

/-- and the results' four. -/
theorem index_out0 : ∀ t : Fin cfg0.N, win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0 :=
  (by decide +kernel : ∀ t : Fin grid0.N, _)

/-! ## The one point reads each operand whole -/

theorem block0_0 (c : Dev nD) (t : Fin cfg0.N) : (iblk0 V c 0 t : Vec Ideal S128x1024 .f32) = foundSpikesIn V c := by
  funext y
  show V c main_arg0 (((cfg0.win 0).blk t).view.emb y) = V c main_arg0 y
  refine congrArg (V c main_arg0) (funext fun a => Fin.ext ?_)
  obtain ⟨e00, e01, e10, e11, e20, e21, e30, e31, e40, e41⟩ := index_in0 t
  match a with
  | ⟨0, _⟩ => show win0_0.index t (0 : Fin 2) * 128 + 1 * (y 0).val = (y 0).val; omega
  | ⟨1, _⟩ => show win0_0.index t (1 : Fin 2) * 1024 + 1 * (y 1).val = (y 1).val; omega

theorem block0_1 (c : Dev nD) (t : Fin cfg0.N) : (iblk0 V c 1 t : Vec Ideal S1024x1024 .f32) = foundWeights V c := by
  funext y
  show V c main_arg1 (((cfg0.win 1).blk t).view.emb y) = V c main_arg1 y
  refine congrArg (V c main_arg1) (funext fun a => Fin.ext ?_)
  obtain ⟨e00, e01, e10, e11, e20, e21, e30, e31, e40, e41⟩ := index_in0 t
  match a with
  | ⟨0, _⟩ => show win0_1.index t (0 : Fin 2) * 1024 + 1 * (y 0).val = (y 0).val; omega
  | ⟨1, _⟩ => show win0_1.index t (1 : Fin 2) * 1024 + 1 * (y 1).val = (y 1).val; omega

theorem block0_2 (c : Dev nD) (t : Fin cfg0.N) : (iblk0 V c 2 t : Vec Ideal S128x1024 .f32) = foundPotentials V c := by
  funext y
  show V c main_arg2 (((cfg0.win 2).blk t).view.emb y) = V c main_arg2 y
  refine congrArg (V c main_arg2) (funext fun a => Fin.ext ?_)
  obtain ⟨e00, e01, e10, e11, e20, e21, e30, e31, e40, e41⟩ := index_in0 t
  match a with
  | ⟨0, _⟩ => show win0_2.index t (0 : Fin 2) * 128 + 1 * (y 0).val = (y 0).val; omega
  | ⟨1, _⟩ => show win0_2.index t (1 : Fin 2) * 1024 + 1 * (y 1).val = (y 1).val; omega

theorem block0_3 (c : Dev nD) (t : Fin cfg0.N) : (iblk0 V c 3 t : Vec Ideal S128x1024 .f32) = foundInTimers V c := by
  funext y
  show V c main_arg3 (((cfg0.win 3).blk t).view.emb y) = V c main_arg3 y
  refine congrArg (V c main_arg3) (funext fun a => Fin.ext ?_)
  obtain ⟨e00, e01, e10, e11, e20, e21, e30, e31, e40, e41⟩ := index_in0 t
  match a with
  | ⟨0, _⟩ => show win0_3.index t (0 : Fin 2) * 128 + 1 * (y 0).val = (y 0).val; omega
  | ⟨1, _⟩ => show win0_3.index t (1 : Fin 2) * 1024 + 1 * (y 1).val = (y 1).val; omega

theorem block0_4 (c : Dev nD) (t : Fin cfg0.N) : (iblk0 V c 4 t : Vec Ideal S128x1024 .f32) = foundOutTimers V c := by
  funext y
  show V c main_arg4 (((cfg0.win 4).blk t).view.emb y) = V c main_arg4 y
  refine congrArg (V c main_arg4) (funext fun a => Fin.ext ?_)
  obtain ⟨e00, e01, e10, e11, e20, e21, e30, e31, e40, e41⟩ := index_in0 t
  match a with
  | ⟨0, _⟩ => show win0_4.index t (0 : Fin 2) * 128 + 1 * (y 0).val = (y 0).val; omega
  | ⟨1, _⟩ => show win0_4.index t (1 : Fin 2) * 1024 + 1 * (y 1).val = (y 1).val; omega

/-! ## The spikes' array (window 5) -/

/-- The spikes as one array of the arrays found. -/
abbrev spikesOf (c : Dev nD) : FVec Ideal S128x1024 .f32 :=
  k0_pay2 (F := Ideal) (foundSpikesIn V c) (foundWeights V c) (foundPotentials V c)

theorem flushed0_5 (c : Dev nD) (t : Fin cfg0.N) :
    (dat0 V c).flushed 5 t = ((cfg0.win 5).blk t).view.read (Elt Ideal) (spikesOf V c) := by
  show (cfg0.win 5).cut (grid0.coords t) ((dat0 V c).after 5 t) = _
  rw [after0_5]
  unfold out0_5
  rw [View.canon_unit_zero offsets_zero]
  simp only [View.ld_unit_zero (S := S128x1024) offsets_zero, View.ld_unit_zero (S := S1024x1024) offsets_zero]
  rw [block0_0, block0_1, block0_2]
  funext y
  show spikesOf V c y = spikesOf V c (((cfg0.win 5).blk t).view.emb y)
  refine congrArg (spikesOf V c) (funext fun a => Fin.ext ?_)
  obtain ⟨e50, e51, e60, e61, e70, e71, e80, e81⟩ := index_out0 t
  match a with
  | ⟨0, _⟩ => show (y 0).val = win0_5.index t (0 : Fin 2) * 128 + 1 * (y 0).val; omega
  | ⟨1, _⟩ => show (y 1).val = win0_5.index t (1 : Fin 2) * 1024 + 1 * (y 1).val; omega

theorem mem_block0_5 (t : Fin cfg0.N) (i : S128x1024.Idx) :
    i ∈ ((cfg0.win 5).blk t).view.set ↔ ∀ a : Fin 2, win0_5.index t a * S128x1024.size a ≤ (i a).val ∧ (i a).val < win0_5.index t a * S128x1024.size a + S128x1024.size a := by
  show i ∈ ((View.whole main_v0_0).slice (win0_5.rect t)).set ↔ _
  rw [View.set_slice_whole, Rect.mem_set_unit]
  exact Iff.rfl

theorem array0_5 (c : Dev nD) : (dat0 V c).arrAt 5 cfg0.N = spikesOf V c := by
  refine (dat0 V c).arrAt_eq_of_cover 5 _ (fun t _ => flushed0_5 V c t) (fun i => ?_)
  have hi0 : (i 0).val < 128 := (i 0).isLt
  have hi1 : (i 1).val < 1024 := (i 1).isLt
  refine ⟨⟨0, by decide⟩, flush0_5 _, ?_⟩
  rw [mem_block0_5]
  obtain ⟨e50, e51, e60, e61, e70, e71, e80, e81⟩ := index_out0 ⟨0, by decide⟩
  intro a
  match a with
  | ⟨0, _⟩ => show win0_5.index ⟨0, by decide⟩ (0 : Fin 2) * 128 ≤ (i 0).val ∧ (i 0).val < win0_5.index ⟨0, by decide⟩ (0 : Fin 2) * 128 + 128; omega
  | ⟨1, _⟩ => show win0_5.index ⟨0, by decide⟩ (1 : Fin 2) * 1024 ≤ (i 1).val ∧ (i 1).val < win0_5.index ⟨0, by decide⟩ (1 : Fin 2) * 1024 + 1024; omega

/-! ## The potentials' array (window 6) -/

abbrev potentialsOf (c : Dev nD) : FVec Ideal S128x1024 .f32 :=
  k0_pay3 (F := Ideal) (foundSpikesIn V c) (foundWeights V c) (foundPotentials V c)

theorem flushed0_6 (c : Dev nD) (t : Fin cfg0.N) :
    (dat0 V c).flushed 6 t = ((cfg0.win 6).blk t).view.read (Elt Ideal) (potentialsOf V c) := by
  show (cfg0.win 6).cut (grid0.coords t) ((dat0 V c).after 6 t) = _
  rw [after0_6]
  unfold out0_6
  rw [View.canon_unit_zero offsets_zero]
  simp only [View.ld_unit_zero (S := S128x1024) offsets_zero, View.ld_unit_zero (S := S1024x1024) offsets_zero]
  rw [block0_0, block0_1, block0_2]
  funext y
  show potentialsOf V c y = potentialsOf V c (((cfg0.win 6).blk t).view.emb y)
  refine congrArg (potentialsOf V c) (funext fun a => Fin.ext ?_)
  obtain ⟨e50, e51, e60, e61, e70, e71, e80, e81⟩ := index_out0 t
  match a with
  | ⟨0, _⟩ => show (y 0).val = win0_6.index t (0 : Fin 2) * 128 + 1 * (y 0).val; omega
  | ⟨1, _⟩ => show (y 1).val = win0_6.index t (1 : Fin 2) * 1024 + 1 * (y 1).val; omega

theorem mem_block0_6 (t : Fin cfg0.N) (i : S128x1024.Idx) :
    i ∈ ((cfg0.win 6).blk t).view.set ↔ ∀ a : Fin 2, win0_6.index t a * S128x1024.size a ≤ (i a).val ∧ (i a).val < win0_6.index t a * S128x1024.size a + S128x1024.size a := by
  show i ∈ ((View.whole main_v0_1).slice (win0_6.rect t)).set ↔ _
  rw [View.set_slice_whole, Rect.mem_set_unit]
  exact Iff.rfl

theorem array0_6 (c : Dev nD) : (dat0 V c).arrAt 6 cfg0.N = potentialsOf V c := by
  refine (dat0 V c).arrAt_eq_of_cover 6 _ (fun t _ => flushed0_6 V c t) (fun i => ?_)
  have hi0 : (i 0).val < 128 := (i 0).isLt
  have hi1 : (i 1).val < 1024 := (i 1).isLt
  refine ⟨⟨0, by decide⟩, flush0_6 _, ?_⟩
  rw [mem_block0_6]
  obtain ⟨e50, e51, e60, e61, e70, e71, e80, e81⟩ := index_out0 ⟨0, by decide⟩
  intro a
  match a with
  | ⟨0, _⟩ => show win0_6.index ⟨0, by decide⟩ (0 : Fin 2) * 128 ≤ (i 0).val ∧ (i 0).val < win0_6.index ⟨0, by decide⟩ (0 : Fin 2) * 128 + 128; omega
  | ⟨1, _⟩ => show win0_6.index ⟨0, by decide⟩ (1 : Fin 2) * 1024 ≤ (i 1).val ∧ (i 1).val < win0_6.index ⟨0, by decide⟩ (1 : Fin 2) * 1024 + 1024; omega

/-! ## The input timers' array (window 7) -/

abbrev inTimersOf (c : Dev nD) : FVec Ideal S128x1024 .f32 :=
  k0_pay4 (F := Ideal) (foundSpikesIn V c) (foundInTimers V c)

theorem flushed0_7 (c : Dev nD) (t : Fin cfg0.N) :
    (dat0 V c).flushed 7 t = ((cfg0.win 7).blk t).view.read (Elt Ideal) (inTimersOf V c) := by
  show (cfg0.win 7).cut (grid0.coords t) ((dat0 V c).after 7 t) = _
  rw [after0_7]
  unfold out0_7
  rw [View.canon_unit_zero offsets_zero]
  simp only [View.ld_unit_zero (S := S128x1024) offsets_zero]
  rw [block0_0, block0_3]
  funext y
  show inTimersOf V c y = inTimersOf V c (((cfg0.win 7).blk t).view.emb y)
  refine congrArg (inTimersOf V c) (funext fun a => Fin.ext ?_)
  obtain ⟨e50, e51, e60, e61, e70, e71, e80, e81⟩ := index_out0 t
  match a with
  | ⟨0, _⟩ => show (y 0).val = win0_7.index t (0 : Fin 2) * 128 + 1 * (y 0).val; omega
  | ⟨1, _⟩ => show (y 1).val = win0_7.index t (1 : Fin 2) * 1024 + 1 * (y 1).val; omega

theorem mem_block0_7 (t : Fin cfg0.N) (i : S128x1024.Idx) :
    i ∈ ((cfg0.win 7).blk t).view.set ↔ ∀ a : Fin 2, win0_7.index t a * S128x1024.size a ≤ (i a).val ∧ (i a).val < win0_7.index t a * S128x1024.size a + S128x1024.size a := by
  show i ∈ ((View.whole main_v0_2).slice (win0_7.rect t)).set ↔ _
  rw [View.set_slice_whole, Rect.mem_set_unit]
  exact Iff.rfl

theorem array0_7 (c : Dev nD) : (dat0 V c).arrAt 7 cfg0.N = inTimersOf V c := by
  refine (dat0 V c).arrAt_eq_of_cover 7 _ (fun t _ => flushed0_7 V c t) (fun i => ?_)
  have hi0 : (i 0).val < 128 := (i 0).isLt
  have hi1 : (i 1).val < 1024 := (i 1).isLt
  refine ⟨⟨0, by decide⟩, flush0_7 _, ?_⟩
  rw [mem_block0_7]
  obtain ⟨e50, e51, e60, e61, e70, e71, e80, e81⟩ := index_out0 ⟨0, by decide⟩
  intro a
  match a with
  | ⟨0, _⟩ => show win0_7.index ⟨0, by decide⟩ (0 : Fin 2) * 128 ≤ (i 0).val ∧ (i 0).val < win0_7.index ⟨0, by decide⟩ (0 : Fin 2) * 128 + 128; omega
  | ⟨1, _⟩ => show win0_7.index ⟨0, by decide⟩ (1 : Fin 2) * 1024 ≤ (i 1).val ∧ (i 1).val < win0_7.index ⟨0, by decide⟩ (1 : Fin 2) * 1024 + 1024; omega

/-! ## The output timers' array (window 8) -/

abbrev outTimersOf (c : Dev nD) : FVec Ideal S128x1024 .f32 :=
  k0_pay5 (F := Ideal) (foundSpikesIn V c) (foundWeights V c) (foundPotentials V c) (foundOutTimers V c)

theorem flushed0_8 (c : Dev nD) (t : Fin cfg0.N) :
    (dat0 V c).flushed 8 t = ((cfg0.win 8).blk t).view.read (Elt Ideal) (outTimersOf V c) := by
  show (cfg0.win 8).cut (grid0.coords t) ((dat0 V c).after 8 t) = _
  rw [after0_8]
  unfold out0_8
  rw [View.canon_unit_zero offsets_zero]
  simp only [View.ld_unit_zero (S := S128x1024) offsets_zero, View.ld_unit_zero (S := S1024x1024) offsets_zero]
  rw [block0_0, block0_1, block0_2, block0_4]
  funext y
  show outTimersOf V c y = outTimersOf V c (((cfg0.win 8).blk t).view.emb y)
  refine congrArg (outTimersOf V c) (funext fun a => Fin.ext ?_)
  obtain ⟨e50, e51, e60, e61, e70, e71, e80, e81⟩ := index_out0 t
  match a with
  | ⟨0, _⟩ => show (y 0).val = win0_8.index t (0 : Fin 2) * 128 + 1 * (y 0).val; omega
  | ⟨1, _⟩ => show (y 1).val = win0_8.index t (1 : Fin 2) * 1024 + 1 * (y 1).val; omega

theorem mem_block0_8 (t : Fin cfg0.N) (i : S128x1024.Idx) :
    i ∈ ((cfg0.win 8).blk t).view.set ↔ ∀ a : Fin 2, win0_8.index t a * S128x1024.size a ≤ (i a).val ∧ (i a).val < win0_8.index t a * S128x1024.size a + S128x1024.size a := by
  show i ∈ ((View.whole main_v0_3).slice (win0_8.rect t)).set ↔ _
  rw [View.set_slice_whole, Rect.mem_set_unit]
  exact Iff.rfl

theorem array0_8 (c : Dev nD) : (dat0 V c).arrAt 8 cfg0.N = outTimersOf V c := by
  refine (dat0 V c).arrAt_eq_of_cover 8 _ (fun t _ => flushed0_8 V c t) (fun i => ?_)
  have hi0 : (i 0).val < 128 := (i 0).isLt
  have hi1 : (i 1).val < 1024 := (i 1).isLt
  refine ⟨⟨0, by decide⟩, flush0_8 _, ?_⟩
  rw [mem_block0_8]
  obtain ⟨e50, e51, e60, e61, e70, e71, e80, e81⟩ := index_out0 ⟨0, by decide⟩
  intro a
  match a with
  | ⟨0, _⟩ => show win0_8.index ⟨0, by decide⟩ (0 : Fin 2) * 128 ≤ (i 0).val ∧ (i 0).val < win0_8.index ⟨0, by decide⟩ (0 : Fin 2) * 128 + 128; omega
  | ⟨1, _⟩ => show win0_8.index ⟨0, by decide⟩ (1 : Fin 2) * 1024 ≤ (i 1).val ∧ (i 1).val < win0_8.index ⟨0, by decide⟩ (1 : Fin 2) * 1024 + 1024; omega

/-! # The weight-update kernel -/

/-- The arrays the weight-update kernel finds, at their literal shapes. -/
abbrev tileWeights (c : Dev nD) : Weights := V c main_arg1
abbrev tileInTimers (c : Dev nD) : Rows := V c main_v0_2
abbrev tileOutTimers (c : Dev nD) : Rows := V c main_v0_3

/-- The new weights as one function of the old weights and the two timer arrays. -/
def tiled (W : Weights) (DP DF : Rows) : Weights :=
  fun j => W j + (∑ b : Fin 128, rule (DF (ix2 b (j 0)) - DP (ix2 b (j 1)))) * invBatch

/-- The printed index maps over the 16 points: the weights' tile moves with the output tile, the input timers' columns
    with its second coordinate and the output timers' columns with its first, both timers from row block 0; the tile's
    coordinates stay below 4. -/
theorem index_facts1 : ∀ t : Fin cfg1.N, win1_0.index t (0 : Fin 2) = win1_3.index t (0 : Fin 2)
    ∧ win1_0.index t (1 : Fin 2) = win1_3.index t (1 : Fin 2)
    ∧ win1_1.index t (0 : Fin 2) = 0
    ∧ win1_1.index t (1 : Fin 2) = win1_3.index t (1 : Fin 2)
    ∧ win1_2.index t (0 : Fin 2) = 0
    ∧ win1_2.index t (1 : Fin 2) = win1_3.index t (0 : Fin 2)
    ∧ win1_3.index t (0 : Fin 2) ≤ 3
    ∧ win1_3.index t (1 : Fin 2) ≤ 3 :=
  (by decide +kernel : ∀ t : Fin grid1.N, _)

/-- Every tile is some point's. -/
theorem index_onto1 : ∀ (s u : Fin 4), ∃ t : Fin cfg1.N, win1_3.index t = ![s.val, u.val] :=
  (by decide +kernel : ∀ (s u : Fin 4), ∃ t : Fin grid1.N, win1_3.index t = ![s.val, u.val])

/-- The three blocks a point reads, at their literal shapes. -/
abbrev weightsBlock (c : Dev nD) (t : Fin cfg1.N) : Vec Ideal S256x256 .f32 := iblk1 V c 0 t
abbrev inTimersBlock (c : Dev nD) (t : Fin cfg1.N) : Vec Ideal S128x256 .f32 := iblk1 V c 1 t
abbrev outTimersBlock (c : Dev nD) (t : Fin cfg1.N) : Vec Ideal S128x256 .f32 := iblk1 V c 2 t

/-- Where entry (p, q) of point t's tile lies in the 1024 x 1024 array. -/
abbrev tileEntry (t : Fin cfg1.N) (p q : Fin 256) : S1024x1024.Idx := ((cfg1.win 3).blk t).view.emb (ix2 p q)

/-- Entry (p, q) of the weights' block is the old weight at the output tile's entry (p, q). -/
theorem weightsBlock_apply (c : Dev nD) (t : Fin cfg1.N) (p q : Fin 256) :
    weightsBlock V c t (ix2 p q) = tileWeights V c (tileEntry t p q) := by
  show V c main_arg1 (((cfg1.win 0).blk t).view.emb (ix2 p q)) = V c main_arg1 (((cfg1.win 3).blk t).view.emb (ix2 p q))
  refine congrArg (V c main_arg1) (funext fun a => Fin.ext ?_)
  obtain ⟨e0, e1, e2, e3, e4, e5, e6, e7⟩ := index_facts1 t
  match a with
  | ⟨0, _⟩ => show win1_0.index t (0 : Fin 2) * 256 + 1 * p.val = win1_3.index t (0 : Fin 2) * 256 + 1 * p.val; omega
  | ⟨1, _⟩ => show win1_0.index t (1 : Fin 2) * 256 + 1 * q.val = win1_3.index t (1 : Fin 2) * 256 + 1 * q.val; omega

/-- Entry (b, q) of the input timers' block is the input timer of row b at the column of the tile's entry (p, q). -/
theorem inTimersBlock_apply (c : Dev nD) (t : Fin cfg1.N) (b : Fin 128) (p q : Fin 256) :
    inTimersBlock V c t (ix2 b q) = tileInTimers V c (ix2 b (tileEntry t p q 1)) := by
  show V c main_v0_2 (((cfg1.win 1).blk t).view.emb (ix2 b q)) = V c main_v0_2 (ix2 b (tileEntry t p q 1))
  refine congrArg (V c main_v0_2) (funext fun a => Fin.ext ?_)
  obtain ⟨e0, e1, e2, e3, e4, e5, e6, e7⟩ := index_facts1 t
  match a with
  | ⟨0, _⟩ => show win1_1.index t (0 : Fin 2) * 128 + 1 * b.val = b.val; omega
  | ⟨1, _⟩ => show win1_1.index t (1 : Fin 2) * 256 + 1 * q.val = win1_3.index t (1 : Fin 2) * 256 + 1 * q.val; omega

/-- Entry (b, p) of the output timers' block is the output timer of row b at the row of the tile's entry (p, q). -/
theorem outTimersBlock_apply (c : Dev nD) (t : Fin cfg1.N) (b : Fin 128) (p q : Fin 256) :
    outTimersBlock V c t (ix2 b p) = tileOutTimers V c (ix2 b (tileEntry t p q 0)) := by
  show V c main_v0_3 (((cfg1.win 2).blk t).view.emb (ix2 b p)) = V c main_v0_3 (ix2 b (tileEntry t p q 0))
  refine congrArg (V c main_v0_3) (funext fun a => Fin.ext ?_)
  obtain ⟨e0, e1, e2, e3, e4, e5, e6, e7⟩ := index_facts1 t
  match a with
  | ⟨0, _⟩ => show win1_2.index t (0 : Fin 2) * 128 + 1 * b.val = b.val; omega
  | ⟨1, _⟩ => show win1_2.index t (1 : Fin 2) * 256 + 1 * p.val = win1_3.index t (0 : Fin 2) * 256 + 1 * p.val; omega

/-- WHAT POINT t WRITES BACK is its tile of the one function of the three arrays. -/
theorem flushed1_3 (c : Dev nD) (t : Fin cfg1.N) :
    (dat1 V c).flushed 3 t
      = ((cfg1.win 3).blk t).view.read (Elt Ideal) (tiled (tileWeights V c) (tileInTimers V c) (tileOutTimers V c)) := by
  show (cfg1.win 3).cut (grid1.coords t) ((dat1 V c).after 3 t) = _
  rw [after1_3]
  unfold outsAt1
  rw [out_eq]
  funext y
  obtain ⟨p, q, rfl⟩ : ∃ (p q : Fin 256), y = ix2 p q := ⟨y 0, y 1, eq_ix2 y⟩
  show k1_pay3 (F := Ideal) (carried (inTimersBlock V c t) (outTimersBlock V c t) 8) (weightsBlock V c t) (ix2 p q)
    = tiled (tileWeights V c) (tileInTimers V c) (tileOutTimers V c) (tileEntry t p q)
  rw [tile_apply, weightsBlock_apply]
  unfold tiled
  refine congrArg (fun s => tileWeights V c (tileEntry t p q) + s * invBatch) (Finset.sum_congr rfl fun b _ => ?_)
  rw [outTimersBlock_apply V c t b p q, inTimersBlock_apply V c t b p q]

theorem mem_block1_3 (t : Fin cfg1.N) (i : S1024x1024.Idx) :
    i ∈ ((cfg1.win 3).blk t).view.set ↔ ∀ a : Fin 2, win1_3.index t a * S256x256.size a ≤ (i a).val ∧ (i a).val < win1_3.index t a * S256x256.size a + S256x256.size a := by
  show i ∈ ((View.whole main_v1).slice (win1_3.rect t)).set ↔ _
  rw [View.set_slice_whole, Rect.mem_set_unit]
  exact Iff.rfl

/-- THE NEW WEIGHTS after the region. -/
theorem array1_3 (c : Dev nD) :
    (dat1 V c).arrAt 3 cfg1.N = tiled (tileWeights V c) (tileInTimers V c) (tileOutTimers V c) := by
  refine (dat1 V c).arrAt_eq_of_cover 3 _ (fun t _ => flushed1_3 V c t) (fun i => ?_)
  have hi0 : (i 0).val < 1024 := (i 0).isLt
  have hi1 : (i 1).val < 1024 := (i 1).isLt
  obtain ⟨t, ht⟩ := index_onto1 ⟨(i 0).val / 256, by omega⟩ ⟨(i 1).val / 256, by omega⟩
  have q0 : win1_3.index t (0 : Fin 2) = (i 0).val / 256 := congrFun ht 0
  have q1 : win1_3.index t (1 : Fin 2) = (i 1).val / 256 := congrFun ht 1
  refine ⟨t, flush1_3 t, ?_⟩
  rw [mem_block1_3]
  intro a
  match a with
  | ⟨0, _⟩ => show win1_3.index t (0 : Fin 2) * 256 ≤ (i 0).val ∧ (i 0).val < win1_3.index t (0 : Fin 2) * 256 + 256; omega
  | ⟨1, _⟩ => show win1_3.index t (1 : Fin 2) * 256 ≤ (i 1).val ∧ (i 1).val < win1_3.index t (1 : Fin 2) * 256 + 256; omega

end Cert.KernelIdeal.Arrays

end
-- ==== Proof.KernelResults.lean ====
/-
  The kernel program's three results as the step's arrays.

  After both kernels: the spikes and the potentials are what the neuron kernel wrote (the weight-update kernel touches
  neither); the new weights are the weight-update kernel's array, a function of the old weights, which the neuron kernel
  only read, and of the two timer arrays, which the neuron kernel wrote. Putting the neuron kernel's entries into the
  weight-update kernel's function gives the step's new weights.
-/
import proofs.«149763_j21311627722942_1_alg».proof.Proof.KernelRun
import proofs.«149763_j21311627722942_1_alg».proof.Proof.KernelValue

set_option maxRecDepth 16384

noncomputable section

open scoped BigOperators

namespace Cert.KernelIdeal.Results

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Idealize.ShloMosaic.ValueIdx Cert.Stdp Cert.KernelIdeal.Arrays

variable (m : (ℓ : Loc nD τ sig) → Buf (Elt Ideal) ℓ) (ρ : Dev nD → PrngReg)

/-- The five arguments as launched, on core c. -/
abbrev inSpikes (c : Dev nD) : Rows := m ((c.tc : Thread nD τ).loc main_arg0)
abbrev oldWeights (c : Dev nD) : Weights := m ((c.tc : Thread nD τ).loc main_arg1)
abbrev oldPotentials (c : Dev nD) : Rows := m ((c.tc : Thread nD τ).loc main_arg2)
abbrev oldInTimers (c : Dev nD) : Rows := m ((c.tc : Thread nD τ).loc main_arg3)
abbrev oldOutTimers (c : Dev nD) : Rows := m ((c.tc : Thread nD τ).loc main_arg4)

theorem spikes_result (c : Dev nD) :
    W2 m ρ c (Proc.devRef .tc main_v0_0) = spikes (inSpikes m c) (oldWeights m c) (oldPotentials m c) := by
  have e1 : W2 m ρ c (Proc.devRef .tc main_v0_0) = W1 m ρ c (Proc.devRef .tc main_v0_0) := W2_of_ne m ρ c main_v0_0 (by decide)
  have e2 : W1 m ρ c (Proc.devRef .tc main_v0_0) = (dat0 (V0 m ρ) c).arrAt 5 cfg0.N := W1_arr m ρ c 5
  rw [e1, e2, array0_5 (V0 m ρ) c]
  funext j
  obtain ⟨b, o, rfl⟩ : ∃ (b : Fin 128) (o : Fin 1024), j = ix2 b o := ⟨j 0, j 1, eq_ix2 j⟩
  exact Region0.pay2_apply (inSpikes m c) (oldWeights m c) (oldPotentials m c) b o

theorem potentials_result (c : Dev nD) :
    W2 m ρ c (Proc.devRef .tc main_v0_1) = potentials (inSpikes m c) (oldWeights m c) (oldPotentials m c) := by
  have e1 : W2 m ρ c (Proc.devRef .tc main_v0_1) = W1 m ρ c (Proc.devRef .tc main_v0_1) := W2_of_ne m ρ c main_v0_1 (by decide)
  have e2 : W1 m ρ c (Proc.devRef .tc main_v0_1) = (dat0 (V0 m ρ) c).arrAt 6 cfg0.N := W1_arr m ρ c 6
  rw [e1, e2, array0_6 (V0 m ρ) c]
  funext j
  obtain ⟨b, o, rfl⟩ : ∃ (b : Fin 128) (o : Fin 1024), j = ix2 b o := ⟨j 0, j 1, eq_ix2 j⟩
  exact Region0.pay3_apply (inSpikes m c) (oldWeights m c) (oldPotentials m c) b o

/-- What the weight-update kernel finds: the old weights as launched, the timers as the neuron kernel wrote them. -/
theorem found_weights (c : Dev nD) : V1 m ρ c main_arg1 = oldWeights m c :=
  (W1_arr m ρ c 1).trans (((dat0 (V0 m ρ) c).arrAt_in 1 rfl _).trans (A_eq0 (V0 m ρ) c 1))
theorem found_inTimers (c : Dev nD) : V1 m ρ c main_v0_2 = inTimersOf (V0 m ρ) c :=
  (W1_arr m ρ c 7).trans (array0_7 (V0 m ρ) c)
theorem found_outTimers (c : Dev nD) : V1 m ρ c main_v0_3 = outTimersOf (V0 m ρ) c :=
  (W1_arr m ρ c 8).trans (array0_8 (V0 m ρ) c)

theorem weights_result (c : Dev nD) :
    W2 m ρ c (Proc.devRef .tc main_v1)
      = weights (inSpikes m c) (oldWeights m c) (oldPotentials m c) (oldInTimers m c) (oldOutTimers m c) := by
  have e1 : W2 m ρ c (Proc.devRef .tc main_v1) = (dat1 (V1 m ρ) c).arrAt 3 cfg1.N := W2_arr m ρ c 3
  rw [e1, array1_3 (V1 m ρ) c]
  show tiled (V1 m ρ c main_arg1) (V1 m ρ c main_v0_2) (V1 m ρ c main_v0_3) = _
  rw [found_weights, found_inTimers, found_outTimers]
  funext j
  obtain ⟨o, i, rfl⟩ : ∃ (o i : Fin 1024), j = ix2 o i := ⟨j 0, j 1, eq_ix2 j⟩
  show oldWeights m c (ix2 o i) + (∑ b : Fin 128, rule (outTimersOf (V0 m ρ) c (ix2 b o) - inTimersOf (V0 m ρ) c (ix2 b i))) * invBatch
    = newWeight (inSpikes m c) (oldWeights m c) (oldPotentials m c) (oldInTimers m c) (oldOutTimers m c) o i
  unfold newWeight
  refine congrArg (fun s => oldWeights m c (ix2 o i) + s * invBatch) (Finset.sum_congr rfl fun b _ => ?_)
  exact congrArg₂ (fun u v => rule (u - v))
    (Region0.pay5_apply (inSpikes m c) (oldWeights m c) (oldPotentials m c) (oldOutTimers m c) b o)
    (Region0.pay4_apply (inSpikes m c) (oldInTimers m c) b i)

/-- THE RUN of the kernel program over the extended reals, its three results the step's arrays of the arguments. -/
theorem run : θ_run defs (onTc (τ := τ) (main (F := Ideal))) ⟨m, fun _ => 0, ρ⟩ (fun r => ∀ c : Dev nD,
      r.2.mem ((c.tc : Thread nD τ).loc main_v0_0) = spikes (inSpikes m c) (oldWeights m c) (oldPotentials m c)
      ∧ r.2.mem ((c.tc : Thread nD τ).loc main_v1) = weights (inSpikes m c) (oldWeights m c) (oldPotentials m c) (oldInTimers m c) (oldOutTimers m c)
      ∧ r.2.mem ((c.tc : Thread nD τ).loc main_v0_1) = potentials (inSpikes m c) (oldWeights m c) (oldPotentials m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨(h c).1.trans (spikes_result m ρ c), (h c).2.1.trans (weights_result m ρ c),
      (h c).2.2.1.trans (potentials_result m ρ c), (h c).2.2.2⟩)
    (Cert.KernelIdeal.GenRun.run_named (F := Ideal) m ρ)

end Cert.KernelIdeal.Results

end
-- ==== Proof.lean ====
/-
  One step of a spiking layer with a timing-dependent weight rule: the two-kernel program against the array program.

  Both programs take a batch of 128 rows of 1024 input spikes, a 1024 x 1024 weight matrix, the outputs' potentials and
  two timer arrays, and return the outputs' spikes, the new weights and the new potentials (Proof/Spec.lean states the
  step entry by entry). The kernel program computes the spikes, potentials and both timers in one kernel over whole
  arrays, then the new weights in a second kernel over 4 x 4 tiles, each tile summing the timing rule over the 128 rows in
  8 chunks of 16 and multiplying by 1/128. The array program forms all 128 x 1024 x 1024 timer differences at once,
  multiplies conditions into values, sums over the rows and divides by 128.

  Over the extended reals the two agree entry by entry, on every input: the input current is the same sum of products;
  a spike is the compare's bit either way; a bit times a value is the choice between the value and zero; a difference
  from zero is the negation; a sum taken chunk by chunk is the sum (addition is commutative and associative); and a
  quotient by 128 is the product with 1/128, an exact binary fraction, at infinite values too. No finiteness of the
  inputs is used. The kernel program's frames are the generated ones; the array program's frame is its generated run
  with the results dropped; the idealization rewrote nothing, so it preserves trivially.
-/
import proofs.«149763_j21311627722942_1_alg».proof.Defs
import proofs.«149763_j21311627722942_1_alg».proof.Proof.Gen.Kernel
import proofs.«149763_j21311627722942_1_alg».proof.Proof.Gen.Kernel.Skeleton
import proofs.«149763_j21311627722942_1_alg».proof.Proof.Gen.Kernel.Loops
import proofs.«149763_j21311627722942_1_alg».proof.Proof.Gen.Kernel.Launch
import proofs.«149763_j21311627722942_1_alg».proof.Proof.Gen.Kernel.Points
import proofs.«149763_j21311627722942_1_alg».proof.Proof.Gen.Kernel.Frame
import proofs.«149763_j21311627722942_1_alg».proof.Proof.Gen.KernelIdeal
import proofs.«149763_j21311627722942_1_alg».proof.Proof.Gen.KernelIdeal.Skeleton
import proofs.«149763_j21311627722942_1_alg».proof.Proof.Gen.KernelIdeal.Loops
import proofs.«149763_j21311627722942_1_alg».proof.Proof.Gen.KernelIdeal.Launch
import proofs.«149763_j21311627722942_1_alg».proof.Proof.Gen.KernelIdeal.Points
import proofs.«149763_j21311627722942_1_alg».proof.Proof.Gen.KernelIdeal.Frame
import proofs.«149763_j21311627722942_1_alg».proof.Proof.Gen.ReferenceIdeal
import proofs.«149763_j21311627722942_1_alg».proof.Proof.Gen.Pre_finite_inputs
import proofs.«149763_j21311627722942_1_alg».proof.Proof.RefRun
import proofs.«149763_j21311627722942_1_alg».proof.Proof.RefRead
import proofs.«149763_j21311627722942_1_alg».proof.Proof.RefValue
import proofs.«149763_j21311627722942_1_alg».proof.Proof.KernelResults
import Idealize.ShloMosaic.Adequacy
import Idealize.ShloMosaic.Init

noncomputable section

namespace Cert.Proof

open Idealize.ShloMosaic Idealize.SL.Sem Cert.Stdp

/-- Both programs run from memories that agree on the five arguments and end with the step's three arrays. -/
theorem algebraic [hKernelIdeal : Cert.KernelIdeal.Facts] [hReferenceIdeal : Cert.ReferenceIdeal.Facts] [hPre : Cert.Pre_finite_inputs.Facts] :
    Cert.algebraic_KernelIdeal_ReferenceIdeal := by
  intro m ρ m' ρ' _ hagree
  refine ⟨fun c => spikes (Cert.KernelIdeal.Results.inSpikes m c) (Cert.KernelIdeal.Results.oldWeights m c) (Cert.KernelIdeal.Results.oldPotentials m c),
    fun c => weights (Cert.KernelIdeal.Results.inSpikes m c) (Cert.KernelIdeal.Results.oldWeights m c) (Cert.KernelIdeal.Results.oldPotentials m c)
      (Cert.KernelIdeal.Results.oldInTimers m c) (Cert.KernelIdeal.Results.oldOutTimers m c),
    fun c => potentials (Cert.KernelIdeal.Results.inSpikes m c) (Cert.KernelIdeal.Results.oldWeights m c) (Cert.KernelIdeal.Results.oldPotentials m c),
    Cert.KernelIdeal.Results.run m ρ, ?_⟩
  refine (θ_run Cert.ReferenceIdeal.defs _ _).mono (fun r h c => ?_) (Cert.ReferenceIdeal.ValueP.run (F := Ideal) m' ρ')
  obtain ⟨h7, h52, h12, hargs⟩ := h c
  obtain ⟨a0, a1, a2, a3, a4⟩ := hagree c
  refine ⟨?_, ?_, ?_, hargs⟩
  · rw [h7, Cert.ReferenceIdeal.ReadP.val_main_v7_eq, Cert.ReferenceIdeal.Against.spikes_eq, a0, a1, a2]
  · rw [h52, Cert.ReferenceIdeal.ReadP.val_main_v52_eq, Cert.ReferenceIdeal.Against.weights_eq, a0, a1, a2, a3, a4]
  · rw [h12, Cert.ReferenceIdeal.ReadP.val_main_v12_eq, Cert.ReferenceIdeal.Against.potentials_eq, a0, a1, a2]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2.2.2) (Cert.ReferenceIdeal.ValueP.run (F := Ideal) m ρ),
  trivial,
  algebraic⟩

end Cert.Proof

end
